-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S256x512 : Shape := ⟨2, ![256, 512]⟩
abbrev S512x256 : Shape := ⟨2, ![512, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S256x512 : S_.BroadcastsInDim S256x512 (![] : Fin 0 → Fin S256x512.rank)
  reducesTo_S256x512_S_d0_1 : S256x512.ReducesTo [0, 1] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S512x256 .f32) (main_arg5 : FVec F S256 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512x256 .f32 := Host.absf main_arg4
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8x2048x256 .f32) (main_arg1 : FVec F S256x512 .f32) (main_arg2 : FVec F S256x512 .f32) (main_arg3 : FVec F S256x512 .f32) (main_arg4 : FVec F S512x256 .f32) (main_arg5 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_v13 main_v16
-- ==== Kernel.lean ====
abbrev S8x2048x256 : Shape := ⟨3, ![8, 2048, 256]⟩
abbrev S256x512 : Shape := ⟨2, ![256, 512]⟩
abbrev S512x256 : Shape := ⟨2, ![512, 256]⟩
abbrev S256 : Shape := ⟨1, ![256]⟩
abbrev S1x256 : Shape := ⟨2, ![1, 256]⟩
abbrev S1x2048x256 : Shape := ⟨3, ![1, 2048, 256]⟩
abbrev S1x512x256 : Shape := ⟨3, ![1, 512, 256]⟩
abbrev S2048x512 : Shape := ⟨2, ![2048, 512]⟩
abbrev S512x512 : Shape := ⟨2, ![512, 512]⟩
abbrev S512x2048 : Shape := ⟨2, ![512, 2048]⟩
abbrev S512 : Shape := ⟨1, ![512]⟩
abbrev S512x1 : Shape := ⟨2, ![512, 1]⟩

abbrev nBuf : Space → Nat
  | .hbm => 12
  | .vmem => 11
  | .smem => 0
  | _ => 0

abbrev bufTy : (tb : Table) → Fin (tcTables nBuf tb) → BufTy
  | .hbm, ⟨0, _⟩ => ⟨S8x2048x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S256, .f32⟩
  | .hbm, ⟨6, _⟩ => ⟨S256x512, .bf16⟩
  | .hbm, ⟨7, _⟩ => ⟨S256x512, .bf16⟩
  | .hbm, ⟨8, _⟩ => ⟨S256x512, .bf16⟩
  | .hbm, ⟨9, _⟩ => ⟨S512x256, .bf16⟩
  | .hbm, ⟨10, _⟩ => ⟨S1x256, .f32⟩
  | .hbm, ⟨11, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S512x256, .bf16⟩
  | .local _ .vmem, ⟨6, _⟩ => ⟨S1x256, .f32⟩
  | .local _ .vmem, ⟨7, _⟩ => ⟨S1x512x256, .f32⟩
  | .local _ .vmem, ⟨8, _⟩ => ⟨S1x512x256, .f32⟩
  | .local _ .vmem, ⟨9, _⟩ => ⟨S2048x512, .bf16⟩
  | .local _ .vmem, ⟨10, _⟩ => ⟨S2048x512, .bf16⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  v0
def k0_off1 (i : grid0.Coords) : Fin 3 → Nat :=
  let c0 : Index := 0#32
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0_0 : Index := 0#32
  ![0, v2.toNat, 0]
def k0_cond1 (i : grid0.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_4 : BitVec 32 := 0#32
  let v14 : BitVec 1 := Scalar.cmpi .ne v13 c0_i32_4
  v14

def k0_mult2 : BitVec 32 :=
  let c0_i32_24 : BitVec 32 := 0#32
  let c512_i32_25 : BitVec 32 := 512#32
  let v48 : BitVec 32 := Scalar.muli c0_i32_24 c512_i32_25
  v48
def k0_off2 (c0_i32_24 : BitVec 32) : Fin 3 → Nat :=
  let c0_26 : Index := 0#32
  let c512_i32_25 : BitVec 32 := 512#32
  let v48 : BitVec 32 := Scalar.muli c0_i32_24 c512_i32_25
  let v49 : BitVec 32 := v48
  let v50 : Index := Scalar.indexCast v49
  let c0_27 : Index := 0#32
  ![0, v50.toNat, 0]
def k0_off3 (c0_i32_24 : BitVec 32) : Fin 2 → Nat :=
  let c512_i32_25 : BitVec 32 := 512#32
  let v48 : BitVec 32 := Scalar.muli c0_i32_24 c512_i32_25
  let v49 : BitVec 32 := v48
  let v58 : Index := Scalar.indexCast v49
  let c0_31 : Index := 0#32
  ![v58.toNat, 0]
def k0_mult3 : BitVec 32 :=
  let c1_i32 : BitVec 32 := 1#32
  let c512_i32_36 : BitVec 32 := 512#32
  let v70 : BitVec 32 := Scalar.muli c1_i32 c512_i32_36
  v70
def k0_mult4 : BitVec 32 :=
  let c2_i32 : BitVec 32 := 2#32
  let c512_i32_47 : BitVec 32 := 512#32
  let v92 : BitVec 32 := Scalar.muli c2_i32 c512_i32_47
  v92
def k0_mult5 : BitVec 32 :=
  let c3_i32 : BitVec 32 := 3#32
  let c512_i32_58 : BitVec 32 := 512#32
  let v114 : BitVec 32 := Scalar.muli c3_i32 c512_i32_58
  v114
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  shapeCasts_S256_S1x256 : S256.ShapeCasts S1x256
  h_S1x512x256 : 0 < S1x512x256.numel
  shapeCasts_S1x512x256_S512x256 : S1x512x256.ShapeCasts S512x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  h_S512x512 : 0 < S512x512.numel
  shapeCasts_S512x512_S512x512 : S512x512.ShapeCasts S512x512
  inb_S2048x512_S2048x512_0_0 : ∀ a, (![0, 0] : Fin 2 → Nat) a + S2048x512.size a ≤ S2048x512.size a
  h_S2048x512 : 0 < S2048x512.numel
  reduces_S512x2048_S512 : S512x2048.Reduces [1] S512
  shapeCasts_S512_S512x1 : S512.ShapeCasts S512x1
  broadcasts_S512x1_S512x2048 : S512x1.Broadcasts S512x2048
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x512x256_S1x512x256_0_0_0 : ∀ a, (![0, 0, 0] : Fin 3 → Nat) a + S1x512x256.size a ≤ S1x512x256.size a
  shapeCasts_S512x256_S1x512x256 : S512x256.ShapeCasts S1x512x256
  dot_S512x256_S256x512_S512x512_1_0_0_1_n_n_wf : DotDims.WF S512x256 S256x512 S512x512 [1] [0] [0] [1] [] []
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  dot_S512x512_S512x256_S512x256_1_0_0_1_n_n_wf : DotDims.WF S512x512 S512x256 S512x256 [1] [0] [0] [1] [] []
  hrank0 : 0 < grid0.rank
  k0_mult1_dvd : ∀ i : grid0.Coords, 512 ∣ (k0_mult1 i).toNat
  k0_off1_inb : ∀ i : grid0.Coords, ∀ a, (k0_off1 i) a + S1x512x256.size a ≤ S1x2048x256.size a
  k0_mult2_dvd : ∀ i : grid0.Coords, ∀ (k0_h1 : k0_cond1 i = 1#1), 512 ∣ k0_mult2.toNat
  k0_off2_inb : ∀ i : grid0.Coords, ∀ (k0_h1 : k0_cond1 i = 1#1), ∀ (r : Fin 4), ∀ a, (k0_off2 (BitVec.ofNat 32 r.val)) a + S1x512x256.size a ≤ S1x2048x256.size a
  k0_off3_inb : ∀ i : grid0.Coords, ∀ (k0_h1 : k0_cond1 i = 1#1), ∀ (r : Fin 4), ∀ a, (k0_off3 (BitVec.ofNat 32 r.val)) a + S512x512.size a ≤ S2048x512.size a
  k0_off3_packedbf16 : ∀ i : grid0.Coords, ∀ (k0_h1 : k0_cond1 i = 1#1), ∀ (r : Fin 4), (Rect.unit (s := S2048x512) (k0_off3 (BitVec.ofNat 32 r.val)) S512x512.size (k0_off3_inb i k0_h1 r)).PackedRows (EltTy.packing .bf16)
  k0_mult3_dvd : ∀ i : grid0.Coords, ∀ (k0_h1 : k0_cond1 i = 1#1), 512 ∣ k0_mult3.toNat
  k0_mult4_dvd : ∀ i : grid0.Coords, ∀ (k0_h1 : k0_cond1 i = 1#1), 512 ∣ k0_mult4.toNat
  k0_mult5_dvd : ∀ i : grid0.Coords, ∀ (k0_h1 : k0_cond1 i = 1#1), 512 ∣ k0_mult5.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .bf16 = 32 ∨ (Rect.block (s := S256x512) S256x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .bf16 = 32 ∨ (Rect.block (s := S512x256) S512x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x256.size a ≤ S8x2048x256.size a
  hwx0_6 : ∀ i : grid0.Coords, EltTy.bits .f32 = 32 ∨ (Rect.block (s := S8x2048x256) S1x512x256.size (cc0_transform_6 i) (hinb0_6 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x512x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S256x512 : Shape := ⟨2, ![256, 512]⟩
abbrev S512x256 : Shape := ⟨2, ![512, 256]⟩
abbrev S256 : Shape := ⟨1, ![256]⟩
abbrev S8x2048x512 : Shape := ⟨3, ![8, 2048, 512]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x256 : Shape := ⟨3, ![1, 1, 256]⟩

abbrev nBuf : Space → Nat
  | .hbm => 41
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S256, .f32⟩
  | .hbm, ⟨6, _⟩ => ⟨S8x2048x512, .f32⟩
  | .hbm, ⟨7, _⟩ => ⟨S8x2048x512, .f32⟩
  | .hbm, ⟨8, _⟩ => ⟨S8x2048x512, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S_, .f32⟩
  | .hbm, ⟨14, _⟩ => ⟨S8x2048, .f32⟩
  | .hbm, ⟨15, _⟩ => ⟨S_, .f32⟩
  | .hbm, ⟨16, _⟩ => ⟨S8x2048, .f32⟩
  | .hbm, ⟨17, _⟩ => ⟨S8x2048, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S_, .f32⟩
  | .hbm, ⟨23, _⟩ => ⟨S8x2048, .f32⟩
  | .hbm, ⟨24, _⟩ => ⟨S8x2048x1, .f32⟩
  | .hbm, ⟨25, _⟩ => ⟨S8x2048x2048, .f32⟩
  | .hbm, ⟨26, _⟩ => ⟨S8x2048x2048, .f32⟩
  | .hbm, ⟨27, _⟩ => ⟨S8x2048x512, .f32⟩
  | .hbm, ⟨28, _⟩ => ⟨S8x2048x256, .f32⟩
  | .hbm, ⟨29, _⟩ => ⟨S1x1x256, .f32⟩
  | .hbm, ⟨30, _⟩ => ⟨S8x2048x256, .f32⟩
  | .hbm, ⟨31, _⟩ => ⟨S8x2048x256, .f32⟩
  | .hbm, ⟨32, _⟩ => ⟨S_, .f32⟩
  | .hbm, ⟨33, _⟩ => ⟨S_, .f32⟩
  | .hbm, ⟨34, _⟩ => ⟨S8x2048x256, .f32⟩
  | .hbm, ⟨35, _⟩ => ⟨S8x2048x256, .i1⟩
  | .hbm, ⟨36, _⟩ => ⟨S_, .f32⟩
  | .hbm, ⟨37, _⟩ => ⟨S8x2048x256, .f32⟩
  | .hbm, ⟨38, _⟩ => ⟨S8x2048x256, .f32⟩
  | .hbm, ⟨39, _⟩ => ⟨S8x2048x256, .f32⟩
  | .hbm, ⟨40, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_v22 : Ref sig .tc := ⟨.hbm, 39, rfl⟩
abbrev main_v23 : Ref sig .tc := ⟨.hbm, 40, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x256 : S_.BroadcastsInDim S8x2048x256 (![] : Fin 0 → Fin S8x2048x256.rank)
  dot_S8x2048x256_S256x512_S8x2048x512_2_0_01_1_n_n_wf : DotDims.WF S8x2048x256 S256x512 S8x2048x512 [2] [0] [0, 1] [1] [] []
  dot_S8x2048x512_S8x2048x512_S8x2048x2048_2_2_1_1_0_0_wf : DotDims.WF S8x2048x512 S8x2048x512 S8x2048x2048 [2] [2] [1] [1] [0] [0]
  dot_S8x2048x2048_S8x2048x512_S8x2048x512_2_1_1_2_0_0_wf : DotDims.WF S8x2048x2048 S8x2048x512 S8x2048x512 [2] [1] [1] [2] [0] [0]
  dot_S8x2048x512_S512x256_S8x2048x256_2_0_01_1_n_n_wf : DotDims.WF S8x2048x512 S512x256 S8x2048x256 [2] [0] [0, 1] [1] [] []

variable [Facts₀]

def dot_S8x2048x256_S256x512_S8x2048x512_2_0_01_1_n_n : DotDims S8x2048x256 S256x512 S8x2048x512 where
  lhsContracting := [2]
  rhsContracting := [0]
  lhsNonContracting := [0, 1]
  rhsNonContracting := [1]
  lhsBatch := []
  rhsBatch := []
  wf := dot_S8x2048x256_S256x512_S8x2048x512_2_0_01_1_n_n_wf
def dot_S8x2048x512_S8x2048x512_S8x2048x2048_2_2_1_1_0_0 : DotDims S8x2048x512 S8x2048x512 S8x2048x2048 where
  lhsContracting := [2]
  rhsContracting := [2]
  lhsNonContracting := [1]
  rhsNonContracting := [1]
  lhsBatch := [0]
  rhsBatch := [0]
  wf := dot_S8x2048x512_S8x2048x512_S8x2048x2048_2_2_1_1_0_0_wf
def dot_S8x2048x2048_S8x2048x512_S8x2048x512_2_1_1_2_0_0 : DotDims S8x2048x2048 S8x2048x512 S8x2048x512 where
  lhsContracting := [2]
  rhsContracting := [1]
  lhsNonContracting := [1]
  rhsNonContracting := [2]
  lhsBatch := [0]
  rhsBatch := [0]
  wf := dot_S8x2048x2048_S8x2048x512_S8x2048x512_2_1_1_2_0_0_wf
def dot_S8x2048x512_S512x256_S8x2048x256_2_0_01_1_n_n : DotDims S8x2048x512 S512x256 S8x2048x256 where
  lhsContracting := [2]
  rhsContracting := [0]
  lhsNonContracting := [0, 1]
  rhsNonContracting := [1]
  lhsBatch := []
  rhsBatch := []
  wf := dot_S8x2048x512_S512x256_S8x2048x256_2_0_01_1_n_n_wf

class Facts : Prop extends Facts₀ where

variable [Facts]
-- ==== Proof.Spec.lean ====
/-
  Scaled dot-product attention over one batch row, then a linear layer, a leaky ReLU and a residual, as ONE
  function of the argument arrays over the extended reals — in the two arrangements the two programs compute it in.

  For a feature row `xr` (256 numbers), weights `wq wk wv` (256 × 512), `w2` (512 × 256), a bias `b2`, and the
  keys `kk` and values `vv` of the row's batch (2048 × 512 each, `kk k = x_k · wk`, `vv k = x_k · wv`):

    q        = xr · wq                                   (512 numbers)
    s_k      = ⟨q, kk k⟩ · τ                              (2048 scores; τ the f32 nearest 1/√512)
    p_k      = exp (s_k − max_j s_j),   l = ∑_k p_k
    a_k      = p_k / l                                     (the softmax weights)
    y        = (∑_k a_k · vv k) · w2 + b2
    out      = leaky_relu y + xr                           (slope the f32 nearest 1/5)

  ARRANGEMENT K folds τ into the query before the products, `s_k = ∑_m (q_m · τ) · kk k m`, and multiplies by the
  reciprocal, `a_k = p_k · (1 / l)`; ARRANGEMENT R scales the finished product, `s_k = (∑_m q_m · kk k m) · τ`, takes
  the row maximum once more against −∞, starts the sum from the zero word and divides, `a_k = p_k / (0 + l)`.
  On finite features and weights the two are one function (`GK_eq_GR`): every score is then a real number, so the
  factor τ moves across the finite sum (distributivity holds among reals; it can fail at ±∞), the maximum of finitely
  many reals is a real, every `p_k` is a positive real, `l` is a positive real — in particular not zero, which is
  the only place where a quotient and a product with the reciprocal differ on the extended reals.
-/
import Idealize.ShloMosaic.PureOps.Ideal

noncomputable section

namespace Cert.Attn

open Idealize.ShloMosaic

/-- The softmax temperature: the f32 word nearest 1/√512, the same word in both programs. -/
abbrev temp : EReal := Ideal.ofBits .f32 0x3D3504F3#32
/-- The leaky-ReLU slope: the f32 word nearest 1/5, the same word in both programs. -/
abbrev slope : EReal := Ideal.ofBits .f32 0x3E4CCCCD#32
/-- The zero word (the threshold of the leaky ReLU; the value a host sum starts from). -/
abbrev zero : EReal := Ideal.ofBits .f32 0x00000000#32
/-- The word of 1.0 (the numerator of the reciprocal). -/
abbrev one : EReal := Ideal.ofBits .f32 0x3F800000#32
/-- The word of −∞ (the value a row maximum starts from). -/
abbrev negInf : EReal := Ideal.ofBits .f32 0xFF800000#32

/-- A feature row times a 256 × 512 weight matrix. -/
def rowProj (xr : Fin 256 → EReal) (w : Fin 256 → Fin 512 → EReal) (mm : Fin 512) : EReal :=
  ∑ d : Fin 256, xr d * w d mm

/-- Arrangement K's scores: the temperature folded into the query first. -/
def scoresK (q : Fin 512 → EReal) (kk : Fin 2048 → Fin 512 → EReal) (k : Fin 2048) : EReal :=
  ∑ mm : Fin 512, (q mm * temp) * kk k mm

/-- Arrangement R's scores: the finished inner product scaled. -/
def scoresR (q : Fin 512 → EReal) (kk : Fin 2048 → Fin 512 → EReal) (k : Fin 2048) : EReal :=
  (∑ mm : Fin 512, q mm * kk k mm) * temp

/-- A row's maximum, folded from −∞. -/
def rowMax (s : Fin 2048 → EReal) : EReal := (Finset.univ : Finset (Fin 2048)).fold max negInf s

/-- Arrangement K's softmax weights: `exp (s − max)` times the reciprocal of their sum. -/
def attnK (s : Fin 2048 → EReal) (k : Fin 2048) : EReal :=
  Ideal.exp (s k - rowMax s) * Ideal.div one (∑ k' : Fin 2048, Ideal.exp (s k' - rowMax s))

/-- Arrangement R's softmax weights: the maximum taken once more against −∞, the sum started from the zero word,
    and a quotient. -/
def attnR (s : Fin 2048 → EReal) (k : Fin 2048) : EReal :=
  Ideal.div (Ideal.exp (s k - max negInf (rowMax s)))
    (zero + ∑ k' : Fin 2048, Ideal.exp (s k' - max negInf (rowMax s)))

/-- The weights applied to the values. -/
def mix (a : Fin 2048 → EReal) (vv : Fin 2048 → Fin 512 → EReal) (mm : Fin 512) : EReal :=
  ∑ k : Fin 2048, a k * vv k mm

/-- The output projection and its bias. -/
def lin (r : Fin 512 → EReal) (w2 : Fin 512 → Fin 256 → EReal) (b2 : Fin 256 → EReal) (d : Fin 256) : EReal :=
  (∑ mm : Fin 512, r mm * w2 mm d) + b2 d

/-- The leaky ReLU: `y` where `0 ≤ y`, else `slope · y`. -/
def lrelu (y : EReal) : EReal := Scalar.select (Ideal.cmp .oge y zero) y (slope * y)

/-- One output row, arrangement K. -/
def rowOutK (xr : Fin 256 → EReal) (wq : Fin 256 → Fin 512 → EReal) (kk vv : Fin 2048 → Fin 512 → EReal)
    (w2 : Fin 512 → Fin 256 → EReal) (b2 : Fin 256 → EReal) (d : Fin 256) : EReal :=
  lrelu (lin (mix (attnK (scoresK (rowProj xr wq) kk)) vv) w2 b2 d) + xr d

/-- One output row, arrangement R. -/
def rowOutR (xr : Fin 256 → EReal) (wq : Fin 256 → Fin 512 → EReal) (kk vv : Fin 2048 → Fin 512 → EReal)
    (w2 : Fin 512 → Fin 256 → EReal) (b2 : Fin 256 → EReal) (d : Fin 256) : EReal :=
  lrelu (lin (mix (attnR (scoresR (rowProj xr wq) kk)) vv) w2 b2 d) + xr d

/-- The whole layer, arrangement K: row `n` of batch `b` attends over the 2048 rows of its own batch. -/
def GK (x : Fin 8 → Fin 2048 → Fin 256 → EReal) (wq wk wv : Fin 256 → Fin 512 → EReal)
    (w2 : Fin 512 → Fin 256 → EReal) (b2 : Fin 256 → EReal) (b : Fin 8) (n : Fin 2048) (d : Fin 256) : EReal :=
  rowOutK (x b n) wq (fun k => rowProj (x b k) wk) (fun k => rowProj (x b k) wv) w2 b2 d

/-- The whole layer, arrangement R. -/
def GR (x : Fin 8 → Fin 2048 → Fin 256 → EReal) (wq wk wv : Fin 256 → Fin 512 → EReal)
    (w2 : Fin 512 → Fin 256 → EReal) (b2 : Fin 256 → EReal) (b : Fin 8) (n : Fin 2048) (d : Fin 256) : EReal :=
  rowOutR (x b n) wq (fun k => rowProj (x b k) wk) (fun k => rowProj (x b k) wv) w2 b2 d

/-! ### The words as extended reals -/

private theorem negInf_eq : negInf = ⊥ := by simp [Ideal.ofBits, Ideal.ieee]

private theorem zero_eq : zero = 0 := by simp [Ideal.ofBits, Ideal.ieee]

private theorem one_eq : one = 1 := by simp [Ideal.ofBits, Ideal.ieee, -EReal.coe_mul]; norm_num

/-- The temperature word is a finite word, hence a real number (its value never matters). -/
private theorem temp_real : ∃ r : ℝ, temp = (r : EReal) := by
  simp [Ideal.ofBits, Ideal.ieee, -EReal.coe_mul]

/-! ### Finite sums of reals stay real -/

/-- The coercion of the reals into the extended reals commutes with finite sums. -/
private theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A real row times a real matrix is a real row. -/
private theorem rowProj_real (xr : Fin 256 → EReal) (w : Fin 256 → Fin 512 → EReal)
    (hx : ∀ d, ∃ r : ℝ, xr d = (r : EReal)) (hw : ∀ d mm, ∃ r : ℝ, w d mm = (r : EReal)) (mm : Fin 512) :
    ∃ r : ℝ, rowProj xr w mm = (r : EReal) := by
  choose rx hrx using hx
  choose rw' hrw using hw
  refine ⟨∑ d, rx d * rw' d mm, ?_⟩
  rw [coe_sum]
  unfold rowProj
  refine Finset.sum_congr rfl fun d _ => ?_
  rw [hrx, hrw, EReal.coe_mul]

/-! ### The scores: the temperature moves across a finite sum of reals -/

private theorem scoresR_real (q : Fin 512 → EReal) (kk : Fin 2048 → Fin 512 → EReal)
    (hq : ∀ mm, ∃ r : ℝ, q mm = (r : EReal)) (hk : ∀ k mm, ∃ r : ℝ, kk k mm = (r : EReal)) (k : Fin 2048) :
    ∃ r : ℝ, scoresR q kk k = (r : EReal) := by
  obtain ⟨t, ht⟩ := temp_real
  choose rq hrq using hq
  choose rk hrk using hk
  refine ⟨(∑ mm, rq mm * rk k mm) * t, ?_⟩
  unfold scoresR
  rw [ht, EReal.coe_mul, coe_sum]
  congr 1
  refine Finset.sum_congr rfl fun mm _ => ?_
  rw [hrq, hrk, EReal.coe_mul]

private theorem scores_eq (q : Fin 512 → EReal) (kk : Fin 2048 → Fin 512 → EReal)
    (hq : ∀ mm, ∃ r : ℝ, q mm = (r : EReal)) (hk : ∀ k mm, ∃ r : ℝ, kk k mm = (r : EReal)) :
    scoresK q kk = scoresR q kk := by
  obtain ⟨t, ht⟩ := temp_real
  choose rq hrq using hq
  choose rk hrk using hk
  funext k
  unfold scoresK scoresR
  rw [ht]
  have h1 : ∀ mm, q mm * (t : EReal) * kk k mm = ((rq mm * t * rk k mm : ℝ) : EReal) := by
    intro mm
    rw [hrq, hrk, EReal.coe_mul, EReal.coe_mul]
  have h2 : ∀ mm, q mm * kk k mm = ((rq mm * rk k mm : ℝ) : EReal) := by
    intro mm
    rw [hrq, hrk, EReal.coe_mul]
  simp only [h1, h2]
  rw [← coe_sum, ← coe_sum, ← EReal.coe_mul, Finset.sum_mul]
  congr 1
  refine Finset.sum_congr rfl fun mm _ => ?_
  ring

/-! ### The softmax weights -/

/-- The maximum of a row of reals is a real. -/
private theorem rowMax_real (s : Fin 2048 → EReal) (hs : ∀ k, ∃ r : ℝ, s k = (r : EReal)) :
    ∃ r : ℝ, rowMax s = (r : EReal) := by
  have htop : rowMax s ≠ ⊤ := by
    apply ne_of_lt
    unfold rowMax
    rw [Finset.fold_max_lt]
    refine ⟨by rw [negInf_eq]; exact bot_lt_top, fun k _ => ?_⟩
    obtain ⟨r, hr⟩ := hs k
    rw [hr]
    exact EReal.coe_lt_top r
  have hbot : rowMax s ≠ ⊥ := by
    apply ne_of_gt
    obtain ⟨r, hr⟩ := hs 0
    have h0 : s 0 ≤ rowMax s := by
      unfold rowMax
      rw [Finset.le_fold_max]
      exact Or.inr ⟨0, Finset.mem_univ _, le_refl _⟩
    refine lt_of_lt_of_le ?_ h0
    rw [hr]
    exact EReal.bot_lt_coe r
  exact ⟨(rowMax s).toReal, (EReal.coe_toReal htop hbot).symm⟩

/-- The normaliser of a row of reals is a positive real; in particular it is not zero. -/
private theorem denom_ne_zero (s : Fin 2048 → EReal) (hs : ∀ k, ∃ r : ℝ, s k = (r : EReal)) :
    (∑ k' : Fin 2048, Ideal.exp (s k' - rowMax s)) ≠ 0 := by
  obtain ⟨m, hm⟩ := rowMax_real s hs
  choose rs hrs using hs
  have h : ∀ k', Ideal.exp (s k' - rowMax s) = ((Real.exp (rs k' - m) : ℝ) : EReal) := by
    intro k'
    rw [hrs, hm, ← EReal.coe_sub, Ideal.exp_coe]
  simp only [h]
  rw [← coe_sum, EReal.coe_ne_zero]
  apply ne_of_gt
  exact Finset.sum_pos (fun k' _ => Real.exp_pos _) ⟨0, Finset.mem_univ _⟩

private theorem attn_eq (s : Fin 2048 → EReal) (hs : ∀ k, ∃ r : ℝ, s k = (r : EReal)) :
    attnK s = attnR s := by
  funext k
  have hl := denom_ne_zero s hs
  unfold attnK attnR
  rw [max_eq_right (by rw [negInf_eq]; exact bot_le), zero_eq, zero_add, one_eq]
  simp only [Ideal.div, if_neg hl, one_mul]

/-- On real-valued features, query weights and key weights the two arrangements are one function. -/
theorem GK_eq_GR (x : Fin 8 → Fin 2048 → Fin 256 → EReal) (wq wk wv : Fin 256 → Fin 512 → EReal)
    (w2 : Fin 512 → Fin 256 → EReal) (b2 : Fin 256 → EReal)
    (hx : ∀ b n d, ∃ r : ℝ, x b n d = (r : EReal)) (hwq : ∀ d mm, ∃ r : ℝ, wq d mm = (r : EReal))
    (hwk : ∀ d mm, ∃ r : ℝ, wk d mm = (r : EReal)) :
    GK x wq wk wv w2 b2 = GR x wq wk wv w2 b2 := by
  funext b n d
  have hq : ∀ mm, ∃ r : ℝ, rowProj (x b n) wq mm = (r : EReal) := rowProj_real _ _ (hx b n) hwq
  have hk : ∀ k mm, ∃ r : ℝ, rowProj (x b k) wk mm = (r : EReal) :=
    fun k => rowProj_real _ _ (hx b k) hwk
  unfold GK GR rowOutK rowOutR
  rw [scores_eq _ _ hq hk, attn_eq _ (scoresR_real _ _ hq hk)]

end Cert.Attn

end
-- ==== Proof.KChunks.lean ====
/-
  The eight key / value chunk payloads of the kernel body at the ideal values, read at an index: each is a 512-row block of
  features times a 256 × 512 weight matrix — a matrix product into the zero accumulator, a sum over the 256 feature
  coordinates; the casts and the changes of float format around it are the identity.
-/
import proofs.«411892_j26121991094971_3_alg».proof.Proof.Gen.KernelIdeal.Skeleton
import proofs.«411892_j26121991094971_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost
import Idealize.ShloMosaic.Lib.StackMember

noncomputable section

namespace Cert.KernelIdeal.KV

open Cert.KernelIdeal Cert.KernelIdeal.Gen Idealize.ShloMosaic Idealize.ShloMosaic.TcCoe Idealize.ShloMosaic.ValueIdx Idealize.SL.Sem

/-! ### The two generic readings -/

/-- The feature block with its leading unit axis dropped (and its float format changed, which is the identity at the
    ideal values) reads, at `(r, d)`, the block at `(0, r, d)`. -/
private theorem rows_apply (v : Vec Ideal S1x512x256 .f32) (r : Fin 512) (d : Fin 256) :
    (truncf .bf16 (shapeCast S512x256 v shapeCasts_S1x512x256_S512x256) bitsLt_bf16_f32 : FVec Ideal S512x256 .bf16) (ix2 r d)
      = v (ix3 0 r d) :=
  shapeCast_1ab_ab_apply v shapeCasts_S1x512x256_S512x256 r d

/-- The product of a 512 × 256 block by the 256 × 512 weights into the zero accumulator, read at `(r, mm)`: the sum over
    the 256 contracted coordinates of the products of the entries. The casts to the same shape and the change of float
    format around it are the identity. -/
private theorem product_apply (A : FVec Ideal S512x256 .bf16) (w : Vec Ideal S256x512 .bf16) (r mm : Fin 512) :
    shapeCast S512x512 (truncf .bf16 (matmul dot_S512x256_S256x512_S512x512_1_0_0_1_n_n none A
        (shapeCast S256x512 w shapeCasts_S256x512_S256x512 : FVec Ideal S256x512 .bf16) (constant S512x512 .f32 0x00000000#32)) bitsLt_bf16_f32)
        shapeCasts_S512x512_S512x512 (ix2 r mm)
      = ∑ d : Fin 256, A (ix2 r d) * w (ix2 d mm) := by
  rw [shapeCast_self, shapeCast_self, matmul_zero_eq_dotGeneral]
  exact StackMember.dotGeneral_plain_apply (φ₁ := .bf16) (φ₂ := .bf16) none A w r mm

/-- A chunk: whatever block reads the features at `(0, r, d)`, its product with the weights is `rowProj`. -/
private theorem chunk_apply (A : FVec Ideal S512x256 .bf16) (v : Vec Ideal S1x512x256 .f32) (w : Vec Ideal S256x512 .bf16)
    (hA : ∀ (r : Fin 512) (d : Fin 256), A (ix2 r d) = v (ix3 0 r d)) (r mm : Fin 512) :
    shapeCast S512x512 (truncf .bf16 (matmul dot_S512x256_S256x512_S512x512_1_0_0_1_n_n none A
        (shapeCast S256x512 w shapeCasts_S256x512_S256x512 : FVec Ideal S256x512 .bf16) (constant S512x512 .f32 0x00000000#32)) bitsLt_bf16_f32)
        shapeCasts_S512x512_S512x512 (ix2 r mm)
      = Cert.Attn.rowProj (fun d => v (ix3 0 r d)) (fun d mm => w (ix2 d mm)) mm := by
  rw [product_apply]
  unfold Cert.Attn.rowProj
  exact Finset.sum_congr rfl fun d _ => by rw [hA r d]

/-! ### The eight chunks -/

/-- A key chunk: rows of the feature block times the key weights. -/
theorem pay3_apply (v51 : Vec Ideal S1x512x256 .f32) (v54 : Vec Ideal S256x512 .bf16) (r : Fin 512) (mm : Fin 512) :
    k0_pay3 (F := Ideal) v51 v54 (ix2 r mm)
      = Cert.Attn.rowProj (fun d => v51 (ix3 0 r d)) (fun d mm => v54 (ix2 d mm)) mm := by
  unfold k0_pay3
  exact chunk_apply (k0_pay2 v51) v51 v54 (fun r d => rows_apply v51 r d) r mm

theorem pay4_apply (v51 : Vec Ideal S1x512x256 .f32) (v62 : Vec Ideal S256x512 .bf16) (r : Fin 512) (mm : Fin 512) :
    k0_pay4 (F := Ideal) v51 v62 (ix2 r mm)
      = Cert.Attn.rowProj (fun d => v51 (ix3 0 r d)) (fun d mm => v62 (ix2 d mm)) mm := by
  unfold k0_pay4
  exact chunk_apply (k0_pay2 v51) v51 v62 (fun r d => rows_apply v51 r d) r mm

theorem pay6_apply (v73 : Vec Ideal S1x512x256 .f32) (v76 : Vec Ideal S256x512 .bf16) (r : Fin 512) (mm : Fin 512) :
    k0_pay6 (F := Ideal) v73 v76 (ix2 r mm)
      = Cert.Attn.rowProj (fun d => v73 (ix3 0 r d)) (fun d mm => v76 (ix2 d mm)) mm := by
  unfold k0_pay6
  exact chunk_apply (k0_pay5 v73) v73 v76 (fun r d => rows_apply v73 r d) r mm

theorem pay7_apply (v73 : Vec Ideal S1x512x256 .f32) (v84 : Vec Ideal S256x512 .bf16) (r : Fin 512) (mm : Fin 512) :
    k0_pay7 (F := Ideal) (k0_pay5 v73) v84 (ix2 r mm)
      = Cert.Attn.rowProj (fun d => v73 (ix3 0 r d)) (fun d mm => v84 (ix2 d mm)) mm := by
  unfold k0_pay7
  exact chunk_apply (k0_pay5 v73) v73 v84 (fun r d => rows_apply v73 r d) r mm

theorem pay9_apply (v95 : Vec Ideal S1x512x256 .f32) (v98 : Vec Ideal S256x512 .bf16) (r : Fin 512) (mm : Fin 512) :
    k0_pay9 (F := Ideal) v95 v98 (ix2 r mm)
      = Cert.Attn.rowProj (fun d => v95 (ix3 0 r d)) (fun d mm => v98 (ix2 d mm)) mm := by
  unfold k0_pay9
  exact chunk_apply (k0_pay8 v95) v95 v98 (fun r d => rows_apply v95 r d) r mm

theorem pay10_apply (v95 : Vec Ideal S1x512x256 .f32) (v106 : Vec Ideal S256x512 .bf16) (r : Fin 512) (mm : Fin 512) :
    k0_pay10 (F := Ideal) v95 v106 (ix2 r mm)
      = Cert.Attn.rowProj (fun d => v95 (ix3 0 r d)) (fun d mm => v106 (ix2 d mm)) mm := by
  unfold k0_pay10
  exact chunk_apply (k0_pay8 v95) v95 v106 (fun r d => rows_apply v95 r d) r mm

theorem pay13_apply (v117 : Vec Ideal S1x512x256 .f32) (v120 : Vec Ideal S256x512 .bf16) (r : Fin 512) (mm : Fin 512) :
    k0_pay13 (F := Ideal) (k0_pay11 v117) v120 (ix2 r mm)
      = Cert.Attn.rowProj (fun d => v117 (ix3 0 r d)) (fun d mm => v120 (ix2 d mm)) mm := by
  unfold k0_pay13
  exact chunk_apply (k0_pay11 v117) v117 v120 (fun r d => rows_apply v117 r d) r mm

theorem pay14_apply (v117 : Vec Ideal S1x512x256 .f32) (v128 : Vec Ideal S256x512 .bf16) (r : Fin 512) (mm : Fin 512) :
    k0_pay14 (F := Ideal) (k0_pay11 v117) v128 (ix2 r mm)
      = Cert.Attn.rowProj (fun d => v117 (ix3 0 r d)) (fun d mm => v128 (ix2 d mm)) mm := by
  unfold k0_pay14
  exact chunk_apply (k0_pay11 v117) v117 v128 (fun r d => rows_apply v117 r d) r mm

end Cert.KernelIdeal.KV

end
-- ==== Proof.KPayload.lean ====
/-
  The kernel body's arithmetic at the ideal values, read at an index. The output payload is arrangement K of the attention layer
  (`Cert.Attn.rowOutK`) of the query tile's row, the query weights, the key and value scratch contents, the output
  weights and the bias — each matrix product a sum over its contracted axis, the lane maximum a fold of `max` from −∞,
  the lane sum a plain sum, every cast and broadcast a re-indexing, every change of float format the identity.
-/
import proofs.«411892_j26121991094971_3_alg».proof.Proof.Gen.KernelIdeal.Skeleton
import proofs.«411892_j26121991094971_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KV

open Cert.KernelIdeal Cert.KernelIdeal.Gen Idealize.ShloMosaic Idealize.ShloMosaic.TcCoe Idealize.ShloMosaic.ValueIdx Idealize.SL.Sem

/-! ### The four matrix products read at an entry

Each is a sum over the one contracted coordinate. For each record: the operand indices' coordinates at an output index
and a contraction index (four facts), then the product at `(r, c)`. -/

/-! The query projection: [512,256] by [256,512], the left operand's axis 1 against the right operand's axis 0. -/

private theorem lhsA_0 (j : S512x512.Idx) (k : dot_S512x256_S256x512_S512x512_1_0_0_1_n_n.contr.Idx) :
    (dot_S512x256_S256x512_S512x512_1_0_0_1_n_n.lhsIdx j k 0).val = (j 0).val := by
  simp [DotDims.lhsIdx, dot_S512x256_S256x512_S512x512_1_0_0_1_n_n]; rfl

private theorem lhsA_1 (j : S512x512.Idx) (k : dot_S512x256_S256x512_S512x512_1_0_0_1_n_n.contr.Idx) :
    (dot_S512x256_S256x512_S512x512_1_0_0_1_n_n.lhsIdx j k 1).val = (k ⟨0, Nat.one_pos⟩).val :=
  DotDims.lhsIdx_val_of_single _ rfl j k

private theorem rhsA_0 (j : S512x512.Idx) (k : dot_S512x256_S256x512_S512x512_1_0_0_1_n_n.contr.Idx) :
    (dot_S512x256_S256x512_S512x512_1_0_0_1_n_n.rhsIdx j k 0).val = (k ⟨0, Nat.one_pos⟩).val :=
  DotDims.rhsIdx_val_of_single _ rfl j k

private theorem rhsA_1 (j : S512x512.Idx) (k : dot_S512x256_S256x512_S512x512_1_0_0_1_n_n.contr.Idx) :
    (dot_S512x256_S256x512_S512x512_1_0_0_1_n_n.rhsIdx j k 1).val = (j 1).val := by
  simp [DotDims.rhsIdx, dot_S512x256_S256x512_S512x512_1_0_0_1_n_n]; rfl

private theorem mmA_apply (a : FVec Ideal S512x256 .bf16) (b : FVec Ideal S256x512 .bf16) (r : Fin 512) (c : Fin 512) :
    matmul dot_S512x256_S256x512_S512x512_1_0_0_1_n_n none a b (constant (F := Ideal) S512x512 .f32 0x00000000#32) (ix2 r c)
      = ∑ t : Fin 256, a (ix2 r t) * b (ix2 t c) := by
  show FloatOps.matmul _ none a b _ _ = _
  rw [Ideal.matmul_constant_zero_apply,
    ← Equiv.sum_comp (contrEquiv1 dot_S512x256_S256x512_S512x512_1_0_0_1_n_n 256 rfl rfl).symm]
  refine Finset.sum_congr rfl fun t _ => ?_
  have hk := contrEquiv1_symm_val dot_S512x256_S256x512_S512x512_1_0_0_1_n_n 256 rfl rfl t
  congr 1
  · refine congrArg a (funext fun ax => Fin.ext ?_)
    match ax with
    | ⟨0, _⟩ => exact lhsA_0 _ _
    | ⟨1, _⟩ => exact (lhsA_1 _ _).trans hk
  · refine congrArg b (funext fun ax => Fin.ext ?_)
    match ax with
    | ⟨0, _⟩ => exact (rhsA_0 _ _).trans hk
    | ⟨1, _⟩ => exact rhsA_1 _ _

/-! The scores: [512,512] by [2048,512], both operands contracted on their axis 1 (a product with the transpose). -/

private theorem lhsB_0 (j : S512x2048.Idx) (k : dot_S512x512_S2048x512_S512x2048_1_1_0_0_n_n.contr.Idx) :
    (dot_S512x512_S2048x512_S512x2048_1_1_0_0_n_n.lhsIdx j k 0).val = (j 0).val := by
  simp [DotDims.lhsIdx, dot_S512x512_S2048x512_S512x2048_1_1_0_0_n_n]; rfl

private theorem lhsB_1 (j : S512x2048.Idx) (k : dot_S512x512_S2048x512_S512x2048_1_1_0_0_n_n.contr.Idx) :
    (dot_S512x512_S2048x512_S512x2048_1_1_0_0_n_n.lhsIdx j k 1).val = (k ⟨0, Nat.one_pos⟩).val :=
  DotDims.lhsIdx_val_of_single _ rfl j k

private theorem rhsB_0 (j : S512x2048.Idx) (k : dot_S512x512_S2048x512_S512x2048_1_1_0_0_n_n.contr.Idx) :
    (dot_S512x512_S2048x512_S512x2048_1_1_0_0_n_n.rhsIdx j k 0).val = (j 1).val := by
  simp [DotDims.rhsIdx, dot_S512x512_S2048x512_S512x2048_1_1_0_0_n_n]; rfl

private theorem rhsB_1 (j : S512x2048.Idx) (k : dot_S512x512_S2048x512_S512x2048_1_1_0_0_n_n.contr.Idx) :
    (dot_S512x512_S2048x512_S512x2048_1_1_0_0_n_n.rhsIdx j k 1).val = (k ⟨0, Nat.one_pos⟩).val :=
  DotDims.rhsIdx_val_of_single _ rfl j k

private theorem mmB_apply (a : FVec Ideal S512x512 .bf16) (b : FVec Ideal S2048x512 .bf16) (r : Fin 512) (c : Fin 2048) :
    matmul dot_S512x512_S2048x512_S512x2048_1_1_0_0_n_n none a b (constant (F := Ideal) S512x2048 .f32 0x00000000#32) (ix2 r c)
      = ∑ t : Fin 512, a (ix2 r t) * b (ix2 c t) := by
  show FloatOps.matmul _ none a b _ _ = _
  rw [Ideal.matmul_constant_zero_apply,
    ← Equiv.sum_comp (contrEquiv1 dot_S512x512_S2048x512_S512x2048_1_1_0_0_n_n 512 rfl rfl).symm]
  refine Finset.sum_congr rfl fun t _ => ?_
  have hk := contrEquiv1_symm_val dot_S512x512_S2048x512_S512x2048_1_1_0_0_n_n 512 rfl rfl t
  congr 1
  · refine congrArg a (funext fun ax => Fin.ext ?_)
    match ax with
    | ⟨0, _⟩ => exact lhsB_0 _ _
    | ⟨1, _⟩ => exact (lhsB_1 _ _).trans hk
  · refine congrArg b (funext fun ax => Fin.ext ?_)
    match ax with
    | ⟨0, _⟩ => exact rhsB_0 _ _
    | ⟨1, _⟩ => exact (rhsB_1 _ _).trans hk

/-! The weighted values: [512,2048] by [2048,512]. -/

private theorem lhsC_0 (j : S512x512.Idx) (k : dot_S512x2048_S2048x512_S512x512_1_0_0_1_n_n.contr.Idx) :
    (dot_S512x2048_S2048x512_S512x512_1_0_0_1_n_n.lhsIdx j k 0).val = (j 0).val := by
  simp [DotDims.lhsIdx, dot_S512x2048_S2048x512_S512x512_1_0_0_1_n_n]; rfl

private theorem lhsC_1 (j : S512x512.Idx) (k : dot_S512x2048_S2048x512_S512x512_1_0_0_1_n_n.contr.Idx) :
    (dot_S512x2048_S2048x512_S512x512_1_0_0_1_n_n.lhsIdx j k 1).val = (k ⟨0, Nat.one_pos⟩).val :=
  DotDims.lhsIdx_val_of_single _ rfl j k

private theorem rhsC_0 (j : S512x512.Idx) (k : dot_S512x2048_S2048x512_S512x512_1_0_0_1_n_n.contr.Idx) :
    (dot_S512x2048_S2048x512_S512x512_1_0_0_1_n_n.rhsIdx j k 0).val = (k ⟨0, Nat.one_pos⟩).val :=
  DotDims.rhsIdx_val_of_single _ rfl j k

private theorem rhsC_1 (j : S512x512.Idx) (k : dot_S512x2048_S2048x512_S512x512_1_0_0_1_n_n.contr.Idx) :
    (dot_S512x2048_S2048x512_S512x512_1_0_0_1_n_n.rhsIdx j k 1).val = (j 1).val := by
  simp [DotDims.rhsIdx, dot_S512x2048_S2048x512_S512x512_1_0_0_1_n_n]; rfl

private theorem mmC_apply (a : FVec Ideal S512x2048 .bf16) (b : FVec Ideal S2048x512 .bf16) (r : Fin 512) (c : Fin 512) :
    matmul dot_S512x2048_S2048x512_S512x512_1_0_0_1_n_n none a b (constant (F := Ideal) S512x512 .f32 0x00000000#32) (ix2 r c)
      = ∑ t : Fin 2048, a (ix2 r t) * b (ix2 t c) := by
  show FloatOps.matmul _ none a b _ _ = _
  rw [Ideal.matmul_constant_zero_apply,
    ← Equiv.sum_comp (contrEquiv1 dot_S512x2048_S2048x512_S512x512_1_0_0_1_n_n 2048 rfl rfl).symm]
  refine Finset.sum_congr rfl fun t _ => ?_
  have hk := contrEquiv1_symm_val dot_S512x2048_S2048x512_S512x512_1_0_0_1_n_n 2048 rfl rfl t
  congr 1
  · refine congrArg a (funext fun ax => Fin.ext ?_)
    match ax with
    | ⟨0, _⟩ => exact lhsC_0 _ _
    | ⟨1, _⟩ => exact (lhsC_1 _ _).trans hk
  · refine congrArg b (funext fun ax => Fin.ext ?_)
    match ax with
    | ⟨0, _⟩ => exact (rhsC_0 _ _).trans hk
    | ⟨1, _⟩ => exact rhsC_1 _ _

/-! The output projection: [512,512] by [512,256]. -/

private theorem lhsD_0 (j : S512x256.Idx) (k : dot_S512x512_S512x256_S512x256_1_0_0_1_n_n.contr.Idx) :
    (dot_S512x512_S512x256_S512x256_1_0_0_1_n_n.lhsIdx j k 0).val = (j 0).val := by
  simp [DotDims.lhsIdx, dot_S512x512_S512x256_S512x256_1_0_0_1_n_n]; rfl

private theorem lhsD_1 (j : S512x256.Idx) (k : dot_S512x512_S512x256_S512x256_1_0_0_1_n_n.contr.Idx) :
    (dot_S512x512_S512x256_S512x256_1_0_0_1_n_n.lhsIdx j k 1).val = (k ⟨0, Nat.one_pos⟩).val :=
  DotDims.lhsIdx_val_of_single _ rfl j k

private theorem rhsD_0 (j : S512x256.Idx) (k : dot_S512x512_S512x256_S512x256_1_0_0_1_n_n.contr.Idx) :
    (dot_S512x512_S512x256_S512x256_1_0_0_1_n_n.rhsIdx j k 0).val = (k ⟨0, Nat.one_pos⟩).val :=
  DotDims.rhsIdx_val_of_single _ rfl j k

private theorem rhsD_1 (j : S512x256.Idx) (k : dot_S512x512_S512x256_S512x256_1_0_0_1_n_n.contr.Idx) :
    (dot_S512x512_S512x256_S512x256_1_0_0_1_n_n.rhsIdx j k 1).val = (j 1).val := by
  simp [DotDims.rhsIdx, dot_S512x512_S512x256_S512x256_1_0_0_1_n_n]; rfl

private theorem mmD_apply (a : FVec Ideal S512x512 .bf16) (b : FVec Ideal S512x256 .bf16) (r : Fin 512) (c : Fin 256) :
    matmul dot_S512x512_S512x256_S512x256_1_0_0_1_n_n none a b (constant (F := Ideal) S512x256 .f32 0x00000000#32) (ix2 r c)
      = ∑ t : Fin 512, a (ix2 r t) * b (ix2 t c) := by
  show FloatOps.matmul _ none a b _ _ = _
  rw [Ideal.matmul_constant_zero_apply,
    ← Equiv.sum_comp (contrEquiv1 dot_S512x512_S512x256_S512x256_1_0_0_1_n_n 512 rfl rfl).symm]
  refine Finset.sum_congr rfl fun t _ => ?_
  have hk := contrEquiv1_symm_val dot_S512x512_S512x256_S512x256_1_0_0_1_n_n 512 rfl rfl t
  congr 1
  · refine congrArg a (funext fun ax => Fin.ext ?_)
    match ax with
    | ⟨0, _⟩ => exact lhsD_0 _ _
    | ⟨1, _⟩ => exact (lhsD_1 _ _).trans hk
  · refine congrArg b (funext fun ax => Fin.ext ?_)
    match ax with
    | ⟨0, _⟩ => exact (rhsD_0 _ _).trans hk
    | ⟨1, _⟩ => exact rhsD_1 _ _

/-! ### The keepdims column layouts, and the two lane reductions -/

/-- An `[a]` array cast to `[a, 1]` reads, at `(i, u)`, the operand at `i`, whatever the unit coordinate `u`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane maximum of a [512,2048] array from the word of −∞, at row `r`: the fold of `max` over the row. -/
private theorem rowmax_apply (s : FVec Ideal S512x2048 .f32) (r : Fin 512) :
    multiReduction (F := Ideal) .maximumf [1] S512 s 0xFF800000#32 reduces_S512x2048_S512 (.inl rfl) rfl (ix1 r)
      = (Finset.univ : Finset (Fin 2048)).fold max Cert.Attn.negInf (fun k => s (ix2 r k)) := by
  refine (Ideal.multiReduction_maximumf_single s _ reduces_S512x2048_S512 (.inl rfl) rfl (ix1 r)).trans ?_
  have e : (s ∘ reduces_S512x2048_S512.lift (ix1 r)) = fun k : Fin 2048 => s (ix2 r k) :=
    funext fun k => congrArg s (funext fun ax => Fin.ext (match ax with | ⟨0, _⟩ => rfl | ⟨1, _⟩ => rfl))
  exact congrArg (fun f => (Finset.univ : Finset (Fin 2048)).fold max Cert.Attn.negInf f) e

/-- The lane sum of a [512,2048] array, at row `r`: the sum over the row. -/
private theorem rowsum_apply (s : FVec Ideal S512x2048 .f32) (r : Fin 512) :
    multiReduction (F := Ideal) .add [1] S512 s 0x00000000#32 reduces_S512x2048_S512 (.inl rfl) rfl (ix1 r)
      = ∑ k : Fin 2048, s (ix2 r k) := by
  refine (Ideal.multiReduction_add_single s _ reduces_S512x2048_S512 (.inl rfl) rfl (ix1 r)).trans ?_
  show ∑ k : Fin 2048, s (reduces_S512x2048_S512.lift (ix1 r) k) = _
  refine Finset.sum_congr rfl fun k _ => congrArg s (funext fun ax => Fin.ext ?_)
  match ax with
  | ⟨0, _⟩ => rfl
  | ⟨1, _⟩ => rfl

/-! ### The softmax of a score array, as the kernel writes it -/

/-- The row maximum, cast to a column and broadcast back over the row, reads the row's maximum at every lane. -/
private theorem rowmax_bcast_apply (s : FVec Ideal S512x2048 .f32) (r : Fin 512) (k : Fin 2048) :
    broadcastTo S512x2048
        (shapeCast S512x1 (multiReduction (F := Ideal) .maximumf [1] S512 s 0xFF800000#32 reduces_S512x2048_S512 (.inl rfl) rfl)
          shapeCasts_S512_S512x1)
        broadcasts_S512x1_S512x2048 (ix2 r k)
      = Cert.Attn.rowMax (fun k' => s (ix2 r k')) := by
  refine (broadcastTo_a1_ab_apply _ _ r k).trans ?_
  refine (shapeCast_a_a1_apply _ _ r 0).trans ?_
  exact rowmax_apply s r

/-- The reciprocal of the row sum, computed on the column and broadcast back over the row. -/
private theorem recip_bcast_apply (p : FVec Ideal S512x2048 .f32) (r : Fin 512) (k : Fin 2048) :
    broadcastTo S512x2048
        (divf (broadcast S512x1 (Scalar.ofBits .f32 0x3F800000#32))
          (shapeCast S512x1 (multiReduction (F := Ideal) .add [1] S512 p 0x00000000#32 reduces_S512x2048_S512 (.inl rfl) rfl)
            shapeCasts_S512_S512x1))
        broadcasts_S512x1_S512x2048 (ix2 r k)
      = Ideal.div Cert.Attn.one (∑ k' : Fin 2048, p (ix2 r k')) := by
  refine (broadcastTo_a1_ab_apply _ _ r k).trans ?_
  refine congrArg (Ideal.div Cert.Attn.one) ?_
  refine (shapeCast_a_a1_apply _ _ r 0).trans ?_
  exact rowsum_apply p r

/-- The exponentials of a score array less its rows' maxima. -/
private def pOf (s : FVec Ideal S512x2048 .f32) : FVec Ideal S512x2048 .f32 :=
  exp (subf s
    (broadcastTo S512x2048
      (shapeCast S512x1 (multiReduction .maximumf [1] S512 s 0xFF800000#32 reduces_S512x2048_S512 (.inl rfl) rfl)
        shapeCasts_S512_S512x1)
      broadcasts_S512x1_S512x2048))

/-- The softmax weights of a score array: the exponentials times the reciprocal of their row's sum. -/
private def aOf (s : FVec Ideal S512x2048 .f32) : FVec Ideal S512x2048 .f32 :=
  mulf (pOf s)
    (broadcastTo S512x2048
      (divf (broadcast S512x1 (Scalar.ofBits .f32 0x3F800000#32))
        (shapeCast S512x1 (multiReduction .add [1] S512 (pOf s) 0x00000000#32 reduces_S512x2048_S512 (.inl rfl) rfl)
          shapeCasts_S512_S512x1))
      broadcasts_S512x1_S512x2048)

private theorem pOf_apply (s : FVec Ideal S512x2048 .f32) (r : Fin 512) (k : Fin 2048) :
    pOf s (ix2 r k) = Ideal.exp (s (ix2 r k) - Cert.Attn.rowMax (fun k' => s (ix2 r k'))) := by
  unfold pOf
  exact congrArg (fun m => Ideal.exp (s (ix2 r k) - m)) (rowmax_bcast_apply s r k)

private theorem aOf_apply (s : FVec Ideal S512x2048 .f32) (r : Fin 512) (k : Fin 2048) :
    aOf s (ix2 r k) = Cert.Attn.attnK (fun k' => s (ix2 r k')) k := by
  unfold aOf Cert.Attn.attnK
  rw [mulf_apply, recip_bcast_apply, pOf_apply]
  simp only [pOf_apply]

/-! ### The kernel's values, one named stage after another -/

/-- The scaled query: the tile's rows times the query weights, times the temperature. -/
private def stQ (v3 : FVec Ideal S1x512x256 .f32) (v6 : FVec Ideal S256x512 .bf16) : FVec Ideal S512x512 .bf16 :=
  truncf .bf16
    (mulf
      (matmul dot_S512x256_S256x512_S512x512_1_0_0_1_n_n none (truncf .bf16 (k0_pay12 v3) bitsLt_bf16_f32)
        (shapeCast S256x512 v6 shapeCasts_S256x512_S256x512) (constant S512x512 .f32 0x00000000#32))
      (broadcast S512x512 (Scalar.ofBits .f32 0x3D3504F3#32)))
    bitsLt_bf16_f32

/-- The scores of the tile's rows against the keys. -/
private def stS (v3 : FVec Ideal S1x512x256 .f32) (v6 : FVec Ideal S256x512 .bf16) (v15 : FVec Ideal S2048x512 .bf16) :
    FVec Ideal S512x2048 .f32 :=
  matmul dot_S512x512_S2048x512_S512x2048_1_1_0_0_n_n none (stQ v3 v6) v15 (constant S512x2048 .f32 0x00000000#32)

/-- The softmax weights applied to the values. -/
private def stM (v3 : FVec Ideal S1x512x256 .f32) (v6 : FVec Ideal S256x512 .bf16) (v15 v29 : FVec Ideal S2048x512 .bf16) :
    FVec Ideal S512x512 .bf16 :=
  truncf .bf16
    (matmul dot_S512x2048_S2048x512_S512x512_1_0_0_1_n_n none (truncf .bf16 (aOf (stS v3 v6 v15)) bitsLt_bf16_f32) v29
      (constant S512x512 .f32 0x00000000#32))
    bitsLt_bf16_f32

/-- The long payload is the output projection of the last stage. -/
private theorem pay15_eq (v3 : FVec Ideal S1x512x256 .f32) (v6 : FVec Ideal S256x512 .bf16) (v15 v29 : FVec Ideal S2048x512 .bf16)
    (v32 : FVec Ideal S512x256 .bf16) :
    k0_pay15 (F := Ideal) v3 v6 v15 v29 v32
      = matmul dot_S512x512_S512x256_S512x256_1_0_0_1_n_n none (stM v3 v6 v15 v29)
          (shapeCast S512x256 v32 shapeCasts_S512x256_S512x256) (constant S512x256 .f32 0x00000000#32) := rfl

/-- The tile cast to a matrix reads the tile's one plane. -/
private theorem pay12_apply (v3 : FVec Ideal S1x512x256 .f32) (r : Fin 512) (d : Fin 256) :
    k0_pay12 (F := Ideal) v3 (ix2 r d) = v3 (ix3 0 r d) := by
  unfold k0_pay12
  exact shapeCast_1ab_ab_apply v3 _ r d

/-- The score row of the tile's row `r`: arrangement K's scores of that row's query against the keys. -/
private def scRow (v3 : FVec Ideal S1x512x256 .f32) (v6 : FVec Ideal S256x512 .bf16) (v15 : FVec Ideal S2048x512 .bf16)
    (r : Fin 512) : Fin 2048 → EReal :=
  Cert.Attn.scoresK (Cert.Attn.rowProj (fun d' => v3 (ix3 0 r d')) (fun d' mm => v6 (ix2 d' mm))) (fun k mm => v15 (ix2 k mm))

private theorem stQ_apply (v3 : FVec Ideal S1x512x256 .f32) (v6 : FVec Ideal S256x512 .bf16) (r mm : Fin 512) :
    stQ v3 v6 (ix2 r mm)
      = Cert.Attn.rowProj (fun d' => v3 (ix3 0 r d')) (fun d' mm => v6 (ix2 d' mm)) mm * Cert.Attn.temp := by
  unfold stQ
  refine congrArg (· * Cert.Attn.temp) ?_
  refine (mmA_apply _ _ r mm).trans ?_
  unfold Cert.Attn.rowProj
  refine Finset.sum_congr rfl fun d _ => ?_
  rw [shapeCast_self, truncf_apply, pay12_apply]

private theorem stS_apply (v3 : FVec Ideal S1x512x256 .f32) (v6 : FVec Ideal S256x512 .bf16) (v15 : FVec Ideal S2048x512 .bf16)
    (r : Fin 512) (k : Fin 2048) : stS v3 v6 v15 (ix2 r k) = scRow v3 v6 v15 r k := by
  unfold stS scRow Cert.Attn.scoresK
  refine (mmB_apply _ _ r k).trans ?_
  refine Finset.sum_congr rfl fun mm _ => ?_
  rw [stQ_apply]

private theorem stM_apply (v3 : FVec Ideal S1x512x256 .f32) (v6 : FVec Ideal S256x512 .bf16) (v15 v29 : FVec Ideal S2048x512 .bf16)
    (r mm : Fin 512) :
    stM v3 v6 v15 v29 (ix2 r mm)
      = Cert.Attn.mix (Cert.Attn.attnK (scRow v3 v6 v15 r)) (fun k mm => v29 (ix2 k mm)) mm := by
  unfold stM Cert.Attn.mix
  refine (mmC_apply _ _ r mm).trans ?_
  refine Finset.sum_congr rfl fun k _ => ?_
  rw [truncf_apply, aOf_apply]
  simp only [stS_apply]

/-! ### The epilogue and the assembly -/

/-- The bias, the leaky ReLU and the residual, at an entry. -/
private theorem pay1_apply (v4 v34 : FVec Ideal S512x256 .f32) (v35 : FVec Ideal S1x256 .f32) (r : Fin 512) (d : Fin 256) :
    k0_pay1 (F := Ideal) v4 v34 v35 (ix3 0 r d)
      = Cert.Attn.lrelu (v34 (ix2 r d) + v35 (ix2 0 d)) + v4 (ix2 r d) := by
  have hb : broadcastTo S512x256 (shapeCast S1x256 v35 shapeCasts_S1x256_S1x256) broadcasts_S1x256_S512x256 (ix2 r d)
      = v35 (ix2 0 d) := by
    rw [shapeCast_self]
    exact broadcastTo_1b_ab_apply v35 _ r d
  unfold k0_pay1
  refine (shapeCast_ab_1ab_apply _ _ 0 r d).trans ?_
  refine Eq.trans ?_ (congrArg (fun b => Cert.Attn.lrelu (v34 (ix2 r d) + b) + v4 (ix2 r d)) hb)
  rfl

/-- The output tile at (r, d): arrangement K of the layer for the query tile's row `r`, against the keys `v15` and the
    values `v29` the scratch buffers hold. -/
theorem payOut_apply (v3 : Vec Ideal S1x512x256 .f32) (v6 : Vec Ideal S256x512 .bf16) (v15 v29 : Vec Ideal S2048x512 .bf16)
    (v32 : Vec Ideal S512x256 .bf16) (v35 : Vec Ideal S1x256 .f32) (r : Fin 512) (d : Fin 256) :
    k0_pay1 (F := Ideal) (k0_pay12 v3) (k0_pay15 v3 v6 v15 v29 v32) v35 (ix3 0 r d)
      = Cert.Attn.rowOutK (fun d' => v3 (ix3 0 r d')) (fun d' mm => v6 (ix2 d' mm)) (fun k mm => v15 (ix2 k mm))
          (fun k mm => v29 (ix2 k mm)) (fun mm d' => v32 (ix2 mm d')) (fun d' => v35 (ix2 0 d')) d := by
  refine (pay1_apply _ _ v35 r d).trans ?_
  rw [pay12_apply, pay15_eq]
  unfold Cert.Attn.rowOutK Cert.Attn.lin
  refine congrArg (fun y => Cert.Attn.lrelu (y + v35 (ix2 0 d)) + v3 (ix3 0 r d)) ?_
  refine (mmD_apply _ _ r d).trans ?_
  refine Finset.sum_congr rfl fun mm _ => ?_
  rw [shapeCast_self, stM_apply]
  rfl

end Cert.KernelIdeal.KV

end
-- ==== Proof.KPieces.lean ====
/-
  What the kernel body leaves behind at a grid point, read at an index, at the ideal values.
  At the first query tile of a batch (case A) the body fills the key scratch and the value scratch chunk by chunk — four
  512-row chunks each, together all 2048 rows — with the batch's feature block times the key weights and times the value
  weights; at the other tiles (case B) it leaves both as it found them. In either case the output tile is arrangement K of
  the attention layer for the tile's 512 rows against whatever keys and values the two scratch buffers then hold.
-/
import proofs.«411892_j26121991094971_3_alg».proof.Proof.Gen.KernelIdeal.Frame
import proofs.«411892_j26121991094971_3_alg».proof.Proof.KChunks
import proofs.«411892_j26121991094971_3_alg».proof.Proof.KPayload

set_option maxRecDepth 16384

noncomputable section

namespace Cert.KernelIdeal.KV

open Cert.KernelIdeal Cert.KernelIdeal.Gen Idealize.ShloMosaic Idealize.ShloMosaic.TcCoe Idealize.ShloMosaic.ValueIdx Idealize.SL.Sem

/-- What a projection scratch holds: row `k` of the feature block times a weight matrix, column by column. -/
private def scr (x0 : Vec Ideal S1x2048x256 .f32) (w : Vec Ideal S256x512 .bf16) : Vec Ideal S2048x512 .bf16 :=
  fun j => Cert.Attn.rowProj (fun d => x0 (ix3 0 (j 0) d)) (fun d mm => w (ix2 d mm)) (j 1)

/-- One 512-row chunk: a payload that is the row projection of the rows it is given, given the feature block's rows
    from row `o` on, is the scratch function on the chunk's rectangle (a block's coordinate is offset + coordinate inside). -/
private theorem chunk_apply (x0 : Vec Ideal S1x2048x256 .f32) (w : Vec Ideal S256x512 .bf16) (o : ℕ)
    (pay : Vec Ideal S1x512x256 .f32 → Vec Ideal S512x512 .bf16)
    (hpay : ∀ (v : Vec Ideal S1x512x256 .f32) (r : Fin 512) (mm : Fin 512),
      pay v (ix2 r mm) = Cert.Attn.rowProj (fun d => v (ix3 0 r d)) (fun d mm => w (ix2 d mm)) mm)
    (inb3 : ∀ a, (![0, o, 0] : Fin 3 → ℕ) a + S1x512x256.size a ≤ S1x2048x256.size a)
    (inb2 : ∀ a, (![o, 0] : Fin 2 → ℕ) a + S512x512.size a ≤ S2048x512.size a)
    (j : (Rect.unit (s := S2048x512) ![o, 0] S512x512.size inb2).shape.Idx) :
    pay (View.ld x0 (Rect.unit (s := S1x2048x256) ![0, o, 0] S1x512x256.size inb3)) j
      = scr x0 w ((Rect.unit (s := S2048x512) ![o, 0] S512x512.size inb2).emb j) := by
  obtain ⟨r, mm, rfl⟩ : ∃ (r : Fin 512) (mm : Fin 512), j = ix2 r mm := ⟨j 0, j 1, eq_ix2 j⟩
  rw [hpay]
  unfold scr
  have e1 : (Rect.unit (s := S2048x512) ![o, 0] S512x512.size inb2).emb (ix2 r mm) 1 = mm :=
    Fin.ext (by show 0 + 1 * mm.val = mm.val; omega)
  have e0 : ∀ d : Fin 256, View.ld x0 (Rect.unit (s := S1x2048x256) ![0, o, 0] S1x512x256.size inb3) (ix3 0 r d)
      = x0 (ix3 0 ((Rect.unit (s := S2048x512) ![o, 0] S512x512.size inb2).emb (ix2 r mm) 0) d) := fun d =>
    congrArg x0 (funext fun a => match a with
      | ⟨0, _⟩ => Fin.ext (by show 0 + 1 * 0 = 0; rfl)
      | ⟨1, _⟩ => Fin.ext (by show o + 1 * r.val = o + 1 * r.val; rfl)
      | ⟨2, _⟩ => Fin.ext (by show 0 + 1 * d.val = d.val; omega))
  rw [funext e0, e1]

/-- The key scratch's four chunk stores, read back at any index, are the scratch function of the feature block and the
    key weights: each store's payload is the function on its own rectangle, and the four rectangles tile the buffer. -/
private theorem keyList_canon (x0 : Vec Ideal S1x2048x256 .f32) (w : Vec Ideal S256x512 .bf16)
    (a0 : (∀ a, (![0, 0, 0] : Fin 3 → ℕ) a + S1x512x256.size a ≤ S1x2048x256.size a)) (a1 : (∀ a, (![0, 512, 0] : Fin 3 → ℕ) a + S1x512x256.size a ≤ S1x2048x256.size a))
    (a2 : (∀ a, (![0, 1024, 0] : Fin 3 → ℕ) a + S1x512x256.size a ≤ S1x2048x256.size a)) (a3 : (∀ a, (![0, 1536, 0] : Fin 3 → ℕ) a + S1x512x256.size a ≤ S1x2048x256.size a))
    (b0 : (∀ a, (![0, 0] : Fin 2 → ℕ) a + S512x512.size a ≤ S2048x512.size a)) (b1 : (∀ a, (![512, 0] : Fin 2 → ℕ) a + S512x512.size a ≤ S2048x512.size a))
    (b2 : (∀ a, (![1024, 0] : Fin 2 → ℕ) a + S512x512.size a ≤ S2048x512.size a)) (b3 : (∀ a, (![1536, 0] : Fin 2 → ℕ) a + S512x512.size a ≤ S2048x512.size a))
    (y : S2048x512.Idx) :
    View.canon [(⟨Rect.unit ![1536, 0] S512x512.size b3, k0_pay13 (k0_pay11 (View.ld x0 (Rect.unit ![0, 1536, 0] S1x512x256.size a3))) w⟩ : View.Piece (Elt Ideal) S2048x512 .bf16),
        ⟨Rect.unit ![1024, 0] S512x512.size b2, k0_pay9 (View.ld x0 (Rect.unit ![0, 1024, 0] S1x512x256.size a2)) w⟩,
        ⟨Rect.unit ![512, 0] S512x512.size b1, k0_pay6 (View.ld x0 (Rect.unit ![0, 512, 0] S1x512x256.size a1)) w⟩,
        ⟨Rect.unit ![0, 0] S512x512.size b0, k0_pay3 (View.ld x0 (Rect.unit ![0, 0, 0] S1x512x256.size a0)) w⟩] y = scr x0 w y := by
  refine View.canon_apply_of_pieces (scr x0 w) _ (fun p hp j => ?_) y
    (View.cover_of_tiledL (s := S2048x512) _ S512x512.size (by sl_kernel_rfl) y)
  simp only [List.mem_cons, List.mem_nil_iff, or_false] at hp
  rcases hp with rfl | rfl | rfl | rfl
  · exact chunk_apply x0 w 1536 (fun v => k0_pay13 (k0_pay11 v) w) (fun v r mm => pay13_apply v w r mm) a3 b3 j
  · exact chunk_apply x0 w 1024 (fun v => k0_pay9 v w) (fun v r mm => pay9_apply v w r mm) a2 b2 j
  · exact chunk_apply x0 w 512 (fun v => k0_pay6 v w) (fun v r mm => pay6_apply v w r mm) a1 b1 j
  · exact chunk_apply x0 w 0 (fun v => k0_pay3 v w) (fun v r mm => pay3_apply v w r mm) a0 b0 j

/-- The value scratch's four chunk stores, read back at any index, are the scratch function of the feature block and
    the value weights. -/
private theorem valList_canon (x0 : Vec Ideal S1x2048x256 .f32) (w : Vec Ideal S256x512 .bf16)
    (a0 : (∀ a, (![0, 0, 0] : Fin 3 → ℕ) a + S1x512x256.size a ≤ S1x2048x256.size a)) (a1 : (∀ a, (![0, 512, 0] : Fin 3 → ℕ) a + S1x512x256.size a ≤ S1x2048x256.size a))
    (a2 : (∀ a, (![0, 1024, 0] : Fin 3 → ℕ) a + S1x512x256.size a ≤ S1x2048x256.size a)) (a3 : (∀ a, (![0, 1536, 0] : Fin 3 → ℕ) a + S1x512x256.size a ≤ S1x2048x256.size a))
    (b0 : (∀ a, (![0, 0] : Fin 2 → ℕ) a + S512x512.size a ≤ S2048x512.size a)) (b1 : (∀ a, (![512, 0] : Fin 2 → ℕ) a + S512x512.size a ≤ S2048x512.size a))
    (b2 : (∀ a, (![1024, 0] : Fin 2 → ℕ) a + S512x512.size a ≤ S2048x512.size a)) (b3 : (∀ a, (![1536, 0] : Fin 2 → ℕ) a + S512x512.size a ≤ S2048x512.size a))
    (y : S2048x512.Idx) :
    View.canon [(⟨Rect.unit ![1536, 0] S512x512.size b3, k0_pay14 (k0_pay11 (View.ld x0 (Rect.unit ![0, 1536, 0] S1x512x256.size a3))) w⟩ : View.Piece (Elt Ideal) S2048x512 .bf16),
        ⟨Rect.unit ![1024, 0] S512x512.size b2, k0_pay10 (View.ld x0 (Rect.unit ![0, 1024, 0] S1x512x256.size a2)) w⟩,
        ⟨Rect.unit ![512, 0] S512x512.size b1, k0_pay7 (k0_pay5 (View.ld x0 (Rect.unit ![0, 512, 0] S1x512x256.size a1))) w⟩,
        ⟨Rect.unit ![0, 0] S512x512.size b0, k0_pay4 (View.ld x0 (Rect.unit ![0, 0, 0] S1x512x256.size a0)) w⟩] y = scr x0 w y := by
  refine View.canon_apply_of_pieces (scr x0 w) _ (fun p hp j => ?_) y
    (View.cover_of_tiledL (s := S2048x512) _ S512x512.size (by sl_kernel_rfl) y)
  simp only [List.mem_cons, List.mem_nil_iff, or_false] at hp
  rcases hp with rfl | rfl | rfl | rfl
  · exact chunk_apply x0 w 1536 (fun v => k0_pay14 (k0_pay11 v) w) (fun v r mm => pay14_apply v w r mm) a3 b3 j
  · exact chunk_apply x0 w 1024 (fun v => k0_pay10 v w) (fun v r mm => pay10_apply v w r mm) a2 b2 j
  · exact chunk_apply x0 w 512 (fun v => k0_pay7 (k0_pay5 v) w) (fun v r mm => pay7_apply v w r mm) a1 b1 j
  · exact chunk_apply x0 w 0 (fun v => k0_pay4 v w) (fun v r mm => pay4_apply v w r mm) a0 b0 j

private theorem hz2 : (![0, 0] : Fin 2 → Nat) = fun _ => 0 := funext fun a => by fin_cases a <;> rfl
private theorem hz3 : (![0, 0, 0] : Fin 3 → Nat) = fun _ => 0 := funext fun a => by fin_cases a <;> rfl

/-- The scratch loaded whole after the four key stores is the scratch function. -/
private theorem keyLoad (arg : Memref sig .tc .vmem S2048x512 .bf16) (x0 : Vec Ideal S1x2048x256 .f32) (w : Vec Ideal S256x512 .bf16)
    (a0 : (∀ a, (![0, 0, 0] : Fin 3 → ℕ) a + S1x512x256.size a ≤ S1x2048x256.size a)) (a1 : (∀ a, (![0, 512, 0] : Fin 3 → ℕ) a + S1x512x256.size a ≤ S1x2048x256.size a))
    (a2 : (∀ a, (![0, 1024, 0] : Fin 3 → ℕ) a + S1x512x256.size a ≤ S1x2048x256.size a)) (a3 : (∀ a, (![0, 1536, 0] : Fin 3 → ℕ) a + S1x512x256.size a ≤ S1x2048x256.size a))
    (b0 : (∀ a, (![0, 0] : Fin 2 → ℕ) a + S512x512.size a ≤ S2048x512.size a)) (b1 : (∀ a, (![512, 0] : Fin 2 → ℕ) a + S512x512.size a ≤ S2048x512.size a))
    (b2 : (∀ a, (![1024, 0] : Fin 2 → ℕ) a + S512x512.size a ≤ S2048x512.size a)) (b3 : (∀ a, (![1536, 0] : Fin 2 → ℕ) a + S512x512.size a ≤ S2048x512.size a))
    (inb : ∀ a, (![0, 0] : Fin 2 → ℕ) a + S2048x512.size a ≤ S2048x512.size a) :
    arg.view.readCov [(⟨Rect.unit ![1536, 0] S512x512.size b3, k0_pay13 (k0_pay11 (View.ld x0 (Rect.unit ![0, 1536, 0] S1x512x256.size a3))) w⟩ : View.Piece (Elt Ideal) S2048x512 .bf16),
        ⟨Rect.unit ![1024, 0] S512x512.size b2, k0_pay9 (View.ld x0 (Rect.unit ![0, 1024, 0] S1x512x256.size a2)) w⟩,
        ⟨Rect.unit ![512, 0] S512x512.size b1, k0_pay6 (View.ld x0 (Rect.unit ![0, 512, 0] S1x512x256.size a1)) w⟩,
        ⟨Rect.unit ![0, 0] S512x512.size b0, k0_pay3 (View.ld x0 (Rect.unit ![0, 0, 0] S1x512x256.size a0)) w⟩] (Rect.unit ![0, 0] S2048x512.size inb).toLoadRect = scr x0 w := by
  rw [View.readCov_eq_canon']
  funext j
  rw [keyList_canon]
  exact congrFun (View.ld_unit_zero (S := S2048x512) hz2 inb (scr x0 w)) j

/-- The scratch loaded whole after the four value stores is the scratch function. -/
private theorem valLoad (arg : Memref sig .tc .vmem S2048x512 .bf16) (x0 : Vec Ideal S1x2048x256 .f32) (w : Vec Ideal S256x512 .bf16)
    (a0 : (∀ a, (![0, 0, 0] : Fin 3 → ℕ) a + S1x512x256.size a ≤ S1x2048x256.size a)) (a1 : (∀ a, (![0, 512, 0] : Fin 3 → ℕ) a + S1x512x256.size a ≤ S1x2048x256.size a))
    (a2 : (∀ a, (![0, 1024, 0] : Fin 3 → ℕ) a + S1x512x256.size a ≤ S1x2048x256.size a)) (a3 : (∀ a, (![0, 1536, 0] : Fin 3 → ℕ) a + S1x512x256.size a ≤ S1x2048x256.size a))
    (b0 : (∀ a, (![0, 0] : Fin 2 → ℕ) a + S512x512.size a ≤ S2048x512.size a)) (b1 : (∀ a, (![512, 0] : Fin 2 → ℕ) a + S512x512.size a ≤ S2048x512.size a))
    (b2 : (∀ a, (![1024, 0] : Fin 2 → ℕ) a + S512x512.size a ≤ S2048x512.size a)) (b3 : (∀ a, (![1536, 0] : Fin 2 → ℕ) a + S512x512.size a ≤ S2048x512.size a))
    (inb : ∀ a, (![0, 0] : Fin 2 → ℕ) a + S2048x512.size a ≤ S2048x512.size a) :
    arg.view.readCov [(⟨Rect.unit ![1536, 0] S512x512.size b3, k0_pay14 (k0_pay11 (View.ld x0 (Rect.unit ![0, 1536, 0] S1x512x256.size a3))) w⟩ : View.Piece (Elt Ideal) S2048x512 .bf16),
        ⟨Rect.unit ![1024, 0] S512x512.size b2, k0_pay10 (View.ld x0 (Rect.unit ![0, 1024, 0] S1x512x256.size a2)) w⟩,
        ⟨Rect.unit ![512, 0] S512x512.size b1, k0_pay7 (k0_pay5 (View.ld x0 (Rect.unit ![0, 512, 0] S1x512x256.size a1))) w⟩,
        ⟨Rect.unit ![0, 0] S512x512.size b0, k0_pay4 (View.ld x0 (Rect.unit ![0, 0, 0] S1x512x256.size a0)) w⟩] (Rect.unit ![0, 0] S2048x512.size inb).toLoadRect = scr x0 w := by
  rw [View.readCov_eq_canon']
  funext j
  rw [valList_canon]
  exact congrFun (View.ld_unit_zero (S := S2048x512) hz2 inb (scr x0 w)) j

/-- The query tile: row `r` of the 512 rows loaded from row `o` of the feature block on is row `o + r` of the block. -/
private theorem tile_row (x0 : Vec Ideal S1x2048x256 .f32) (off : Fin 3 → ℕ) (o : ℕ) (hoff : off = ![0, o, 0])
    (inb : ∀ a, off a + S1x512x256.size a ≤ S1x2048x256.size a)
    (r : Fin 512) (q : Fin 2048) (hq : q.val = o + r.val) (d : Fin 256) :
    View.ld x0 (Rect.unit (s := S1x2048x256) off S1x512x256.size inb) (ix3 0 r d) = x0 (ix3 0 q d) := by
  subst hoff
  exact congrArg x0 (funext fun a => match a with
    | ⟨0, _⟩ => Fin.ext (by show 0 + 1 * 0 = 0; rfl)
    | ⟨1, _⟩ => Fin.ext (by show o + 1 * r.val = q.val; omega)
    | ⟨2, _⟩ => Fin.ext (by show 0 + 1 * d.val = d.val; omega))

/-- The output payload once its loads are known: the tile's row `r` is the feature block's row `q`, and the key and
    value contents are the two scratch functions. -/
private theorem outA_core (x0 : Vec Ideal S1x2048x256 .f32) (x1 x2 x3 : Vec Ideal S256x512 .bf16)
    (x4 : Vec Ideal S512x256 .bf16) (x5 : Vec Ideal S1x256 .f32) (T : Vec Ideal S1x512x256 .f32)
    (KC VC : Vec Ideal S2048x512 .bf16) (r : Fin 512) (d : Fin 256) (q : Fin 2048)
    (hT : ∀ d', T (ix3 0 r d') = x0 (ix3 0 q d')) (hK : KC = scr x0 x2) (hV : VC = scr x0 x3) :
    k0_pay1 (F := Ideal) (k0_pay12 T) (k0_pay15 T x1 KC VC x4) x5 (ix3 0 r d)
      = Cert.Attn.rowOutK (fun d' => x0 (ix3 0 q d')) (fun d' mm => x1 (ix2 d' mm))
          (fun k => Cert.Attn.rowProj (fun d' => x0 (ix3 0 k d')) (fun d' mm => x2 (ix2 d' mm)))
          (fun k => Cert.Attn.rowProj (fun d' => x0 (ix3 0 k d')) (fun d' mm => x3 (ix2 d' mm)))
          (fun mm d' => x4 (ix2 mm d')) (fun d' => x5 (ix2 0 d')) d := by
  subst hK hV
  refine (payOut_apply T x1 (scr x0 x2) (scr x0 x3) x4 x5 r d).trans ?_
  rw [funext hT]
  rfl

/-- Case A leaves the key scratch at the feature block times the key weights, row by row. -/
theorem soutA0_apply (c : Dev nD) (i : grid0.Coords) (arg2 : Memref sig .tc .vmem S1x2048x256 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S512x256 .bf16) (harg6 : arg6.IsWhole) (arg7 : Memref sig .tc .vmem S1x256 .f32) (harg7 : arg7.IsWhole) (arg8 : Memref sig .tc .vmem S1x512x256 .f32) (harg8 : arg8.IsWhole) (arg9 : Memref sig .tc .vmem S2048x512 .bf16) (harg9 : arg9.IsWhole) (arg10 : Memref sig .tc .vmem S2048x512 .bf16) (harg10 : arg10.IsWhole) (hc0 : cond0_0 i)
    (x0 : Vec Ideal S1x2048x256 .f32) (x1 : Vec Ideal S256x512 .bf16) (x2 : Vec Ideal S256x512 .bf16) (x3 : Vec Ideal S256x512 .bf16) (x4 : Vec Ideal S512x256 .bf16) (x5 : Vec Ideal S1x256 .f32) (k : Fin 2048) (mm : Fin 512) :
    sout0_A_0 (F := Ideal) c i arg2 harg2 arg3 harg3 arg4 harg4 arg5 harg5 arg6 harg6 arg7 harg7 arg8 harg8 arg9 harg9 arg10 harg10 hc0 x0 x1 x2 x3 x4 x5 (ix2 k mm)
      = Cert.Attn.rowProj (fun d => x0 (ix3 0 k d)) (fun d mm => x2 (ix2 d mm)) mm := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg2.read_unread, harg4.read_unread, View.ld_unit_zero (S := S256x512) hz2]
  exact keyList_canon x0 x2 _ _ _ _ _ _ _ _ (ix2 k mm)

/-- Case A leaves the value scratch at the feature block times the value weights, row by row. -/
theorem soutA1_apply (c : Dev nD) (i : grid0.Coords) (arg2 : Memref sig .tc .vmem S1x2048x256 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S512x256 .bf16) (harg6 : arg6.IsWhole) (arg7 : Memref sig .tc .vmem S1x256 .f32) (harg7 : arg7.IsWhole) (arg8 : Memref sig .tc .vmem S1x512x256 .f32) (harg8 : arg8.IsWhole) (arg9 : Memref sig .tc .vmem S2048x512 .bf16) (harg9 : arg9.IsWhole) (arg10 : Memref sig .tc .vmem S2048x512 .bf16) (harg10 : arg10.IsWhole) (hc0 : cond0_0 i)
    (x0 : Vec Ideal S1x2048x256 .f32) (x1 : Vec Ideal S256x512 .bf16) (x2 : Vec Ideal S256x512 .bf16) (x3 : Vec Ideal S256x512 .bf16) (x4 : Vec Ideal S512x256 .bf16) (x5 : Vec Ideal S1x256 .f32) (k : Fin 2048) (mm : Fin 512) :
    sout0_A_1 (F := Ideal) c i arg2 harg2 arg3 harg3 arg4 harg4 arg5 harg5 arg6 harg6 arg7 harg7 arg8 harg8 arg9 harg9 arg10 harg10 hc0 x0 x1 x2 x3 x4 x5 (ix2 k mm)
      = Cert.Attn.rowProj (fun d => x0 (ix3 0 k d)) (fun d mm => x3 (ix2 d mm)) mm := by
  unfold sout0_A_1
  rw [View.read_writes_eq_canon _ _ _ (scover0_A_1 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_words
  simp only [View.readAt_eq_ld, harg2.read_unread, harg5.read_unread, View.ld_unit_zero (S := S256x512) hz2]
  exact valList_canon x0 x3 _ _ _ _ _ _ _ _ (ix2 k mm)

/-- Case A's output tile: row `r` of the tile is row `q = 512 · (tile index) + r` of the feature block, attended over the
    keys and values the same point has just stored. -/
theorem outA6_apply (c : Dev nD) (i : grid0.Coords) (arg2 : Memref sig .tc .vmem S1x2048x256 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S512x256 .bf16) (harg6 : arg6.IsWhole) (arg7 : Memref sig .tc .vmem S1x256 .f32) (harg7 : arg7.IsWhole) (arg8 : Memref sig .tc .vmem S1x512x256 .f32) (harg8 : arg8.IsWhole) (arg9 : Memref sig .tc .vmem S2048x512 .bf16) (harg9 : arg9.IsWhole) (arg10 : Memref sig .tc .vmem S2048x512 .bf16) (harg10 : arg10.IsWhole) (hc0 : cond0_0 i)
    (x0 : Vec Ideal S1x2048x256 .f32) (x1 : Vec Ideal S256x512 .bf16) (x2 : Vec Ideal S256x512 .bf16) (x3 : Vec Ideal S256x512 .bf16) (x4 : Vec Ideal S512x256 .bf16) (x5 : Vec Ideal S1x256 .f32) (r : Fin 512) (d : Fin 256) (q : Fin 2048) (hq : q.val = 512 * (i 1).val + r.val) :
    out0_A_6 (F := Ideal) c i arg2 harg2 arg3 harg3 arg4 harg4 arg5 harg5 arg6 harg6 arg7 harg7 arg8 harg8 arg9 harg9 arg10 harg10 hc0 x0 x1 x2 x3 x4 x5 (ix3 0 r d)
      = Cert.Attn.rowOutK (fun d' => x0 (ix3 0 q d')) (fun d' mm => x1 (ix2 d' mm))
          (fun k => Cert.Attn.rowProj (fun d' => x0 (ix3 0 k d')) (fun d' mm => x2 (ix2 d' mm)))
          (fun k => Cert.Attn.rowProj (fun d' => x0 (ix3 0 k d')) (fun d' mm => x3 (ix2 d' mm)))
          (fun mm d' => x4 (ix2 mm d')) (fun d' => x5 (ix2 0 d')) d := by
  unfold out0_A_6
  rw [View.read_writes_eq_canon _ _ _ (cover0_A_6 c i arg2 harg2 arg3 harg3 arg4 harg4 arg5 harg5 arg6 harg6 arg7 harg7 arg8 harg8 arg9 harg9 arg10 harg10 hc0 x0 x1 x2 x3 x4 x5)]
  unfold kernelRun0_A
  dsimp only
  sl_unfold_run_names
  rw [View.canon_unit_zero (S := S1x512x256) hz3]
  simp only [View.readAt_eq_ld, harg2.read_unread, harg3.read_unread, harg4.read_unread, harg5.read_unread,
    harg6.read_unread, harg7.read_unread, View.ld_unit_zero (S := S256x512) hz2, View.ld_unit_zero (S := S512x256) hz2,
    View.ld_unit_zero (S := S1x256) hz2]
  exact outA_core x0 x1 x2 x3 x4 x5 _ _ _ r d q
    (fun d' => tile_row x0 (k0_off1 i) (512 * (i 1).val) (k0_off1_eq i) _ r q hq d')
    (keyLoad arg9 x0 x2 _ _ _ _ _ _ _ _ _) (valLoad arg10 x0 x3 _ _ _ _ _ _ _ _ _)

/-- Case B's output tile: the same, against the keys `xs0` and values `xs1` the point before left in the scratch. -/
theorem outB6_apply (c : Dev nD) (i : grid0.Coords) (arg2 : Memref sig .tc .vmem S1x2048x256 .f32) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x512 .bf16) (harg5 : arg5.IsWhole) (arg6 : Memref sig .tc .vmem S512x256 .bf16) (harg6 : arg6.IsWhole) (arg7 : Memref sig .tc .vmem S1x256 .f32) (harg7 : arg7.IsWhole) (arg8 : Memref sig .tc .vmem S1x512x256 .f32) (harg8 : arg8.IsWhole) (arg9 : Memref sig .tc .vmem S2048x512 .bf16) (harg9 : arg9.IsWhole) (arg10 : Memref sig .tc .vmem S2048x512 .bf16) (harg10 : arg10.IsWhole) (hc0 : ¬cond0_0 i)
    (x0 : Vec Ideal S1x2048x256 .f32) (x1 : Vec Ideal S256x512 .bf16) (x2 : Vec Ideal S256x512 .bf16) (x3 : Vec Ideal S256x512 .bf16) (x4 : Vec Ideal S512x256 .bf16) (x5 : Vec Ideal S1x256 .f32) (xs0 xs1 : Vec Ideal S2048x512 .bf16) (r : Fin 512) (d : Fin 256) (q : Fin 2048)
    (hq : q.val = 512 * (i 1).val + r.val) :
    out0_B_6 (F := Ideal) c i arg2 harg2 arg3 harg3 arg4 harg4 arg5 harg5 arg6 harg6 arg7 harg7 arg8 harg8 arg9 harg9 arg10 harg10 hc0 x0 x1 x2 x3 x4 x5 xs0 xs1 (ix3 0 r d)
      = Cert.Attn.rowOutK (fun d' => x0 (ix3 0 q d')) (fun d' mm => x1 (ix2 d' mm))
          (fun k mm => xs0 (ix2 k mm)) (fun k mm => xs1 (ix2 k mm))
          (fun mm d' => x4 (ix2 mm d')) (fun d' => x5 (ix2 0 d')) d := by
  unfold out0_B_6
  rw [View.read_writes_eq_canon _ _ _ (cover0_B_6 c i arg2 harg2 arg3 harg3 arg4 harg4 arg5 harg5 arg6 harg6 arg7 harg7 arg8 harg8 arg9 harg9 arg10 harg10 hc0 x0 x1 x2 x3 x4 x5 xs0 xs1)]
  unfold kernelRun0_B
  dsimp only
  sl_unfold_run_names
  rw [View.canon_unit_zero (S := S1x512x256) hz3]
  simp only [View.readAt_eq_ld, harg2.read_unread, harg3.read_unread, harg6.read_unread, harg7.read_unread,
    harg9.read_unread, harg10.read_unread, View.ld_unit_zero (S := S256x512) hz2, View.ld_unit_zero (S := S512x256) hz2,
    View.ld_unit_zero (S := S1x256) hz2, View.ld_unit_zero (S := S2048x512) hz2]
  refine (payOut_apply _ _ _ _ _ _ r d).trans ?_
  simp only [tile_row x0 (k0_off1 i) (512 * (i 1).val) (k0_off1_eq i) _ r q hq]

end Cert.KernelIdeal.KV

end
-- ==== Proof.KInputs.lean ====
/-
  What the region's input windows hold at a grid point, read at an index, at the ideal values. The host operations before
  the region only change float format (the identity on extended reals) and re-lay the bias as one row, so: window 0's block
  at point `t` is batch `t / 4` of the features — all 2048 rows of it —, windows 1 to 4 are the four weight matrices whole,
  window 5 the bias as a 1 × 256 row.
-/
import proofs.«411892_j26121991094971_3_alg».proof.Proof.Gen.KernelIdeal.Frame
import proofs.«411892_j26121991094971_3_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.KV

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ)

/-- The features, the three projection weights, the output weights and the bias, by coordinates. -/
abbrev X (c : Dev nD) (b : Fin 8) (n : Fin 2048) (d : Fin 256) : EReal := m ((c : Thread nD τ).loc main_arg0) (ix3 b n d)
abbrev WQ (c : Dev nD) (d : Fin 256) (mm : Fin 512) : EReal := m ((c : Thread nD τ).loc main_arg1) (ix2 d mm)
abbrev WK (c : Dev nD) (d : Fin 256) (mm : Fin 512) : EReal := m ((c : Thread nD τ).loc main_arg2) (ix2 d mm)
abbrev WV (c : Dev nD) (d : Fin 256) (mm : Fin 512) : EReal := m ((c : Thread nD τ).loc main_arg3) (ix2 d mm)
abbrev W2 (c : Dev nD) (mm : Fin 512) (d : Fin 256) : EReal := m ((c : Thread nD τ).loc main_arg4) (ix2 mm d)
abbrev B2 (c : Dev nD) (d : Fin 256) : EReal := m ((c : Thread nD τ).loc main_arg5) (ix1 d)

/-! ## The index maps over the grid

Window 0's block index follows the first grid coordinate, which at the linear point `t` of the 8 × 4 grid is `t / 4`;
windows 1 to 5 keep the origin at every point. -/

private theorem idx0 : ∀ t : Fin cfg0.N,
    win0_0.index t (0 : Fin 3) = t.val / 4 ∧ win0_0.index t 1 = 0 ∧ win0_0.index t 2 = 0 :=
  (by decide +kernel : ∀ t : Fin grid0.N, _)
private theorem idx1 : ∀ t : Fin cfg0.N, win0_1.index t (0 : Fin 2) = 0 ∧ win0_1.index t 1 = 0 :=
  (by decide +kernel : ∀ t : Fin grid0.N, _)
private theorem idx2 : ∀ t : Fin cfg0.N, win0_2.index t (0 : Fin 2) = 0 ∧ win0_2.index t 1 = 0 :=
  (by decide +kernel : ∀ t : Fin grid0.N, _)
private theorem idx3 : ∀ t : Fin cfg0.N, win0_3.index t (0 : Fin 2) = 0 ∧ win0_3.index t 1 = 0 :=
  (by decide +kernel : ∀ t : Fin grid0.N, _)
private theorem idx4 : ∀ t : Fin cfg0.N, win0_4.index t (0 : Fin 2) = 0 ∧ win0_4.index t 1 = 0 :=
  (by decide +kernel : ∀ t : Fin grid0.N, _)
private theorem idx5 : ∀ t : Fin cfg0.N, win0_5.index t (0 : Fin 2) = 0 ∧ win0_5.index t 1 = 0 :=
  (by decide +kernel : ∀ t : Fin grid0.N, _)

/-! ## What the host operations leave in the arrays the windows stage

A change of float format is the identity on extended reals, so each converted weight matrix is the launched one; the
bias re-laid as one row reads, at `(0, d)`, the launched bias at `d`. -/

private theorem V_v0 (c : Dev nD) :
    (V m c main_v0 : S256x512.Idx → EReal) = m ((c : Thread nD τ).loc main_arg1) := by
  dsimp only [Gen.V, Gen.hostOps0]; after_results; rfl
private theorem V_v1 (c : Dev nD) :
    (V m c main_v1 : S256x512.Idx → EReal) = m ((c : Thread nD τ).loc main_arg2) := by
  dsimp only [Gen.V, Gen.hostOps0]; after_results; rfl
private theorem V_v2 (c : Dev nD) :
    (V m c main_v2 : S256x512.Idx → EReal) = m ((c : Thread nD τ).loc main_arg3) := by
  dsimp only [Gen.V, Gen.hostOps0]; after_results; rfl
private theorem V_v3 (c : Dev nD) :
    (V m c main_v3 : S512x256.Idx → EReal) = m ((c : Thread nD τ).loc main_arg4) := by
  dsimp only [Gen.V, Gen.hostOps0]; after_results; rfl
private theorem V_v4 (c : Dev nD) :
    (V m c main_v4 : S1x256.Idx → EReal)
      = shapeCast S1x256 (m ((c : Thread nD τ).loc main_arg5) : S256.Idx → EReal) shapeCasts_S256_S1x256 := by
  dsimp only [Gen.V, Gen.hostOps0]; after_results; rfl

/-! ## The blocks at an index

A block's coordinate in its array is index × size + 1 × the coordinate inside the block. -/

/-- Window 0's block at point `t`: the feature rows of batch `b = t / 4`. -/
theorem iblk0_apply (c : Dev nD) (t : Fin cfg0.N) (b : Fin 8) (hb : b.val = t.val / 4) (k : Fin 2048) (d : Fin 256) :
    (iblk m c 0 t : Vec Ideal S1x2048x256 .f32) (ix3 0 k d) = X m c b k d := by
  obtain ⟨h0, h1, h2⟩ := idx0 t
  unfold iblk
  rw [View.read_apply]
  show V m c main_arg0 _ = m ((c : Thread nD τ).loc main_arg0) _
  rw [V_main_arg0]
  congr 1
  funext a
  apply Fin.ext
  match a with
  | ⟨0, _⟩ => show win0_0.index t 0 * 1 + 1 * (0 : Fin 1).val = b.val; rw [h0, hb]; simp
  | ⟨1, _⟩ => show win0_0.index t 1 * 2048 + 1 * k.val = k.val; rw [h1]; omega
  | ⟨2, _⟩ => show win0_0.index t 2 * 256 + 1 * d.val = d.val; rw [h2]; omega

/-- Window 1 at any point: the query weights. -/
theorem iblk1_apply (c : Dev nD) (t : Fin cfg0.N) (d : Fin 256) (mm : Fin 512) :
    (iblk m c 1 t : Vec Ideal S256x512 .bf16) (ix2 d mm) = WQ m c d mm := by
  obtain ⟨h0, h1⟩ := idx1 t
  unfold iblk
  rw [View.read_apply]
  show (V m c main_v0 : S256x512.Idx → EReal) _ = m ((c : Thread nD τ).loc main_arg1) _
  rw [V_v0]
  congr 1
  funext a
  apply Fin.ext
  match a with
  | ⟨0, _⟩ => show win0_1.index t 0 * 256 + 1 * d.val = d.val; rw [h0]; omega
  | ⟨1, _⟩ => show win0_1.index t 1 * 512 + 1 * mm.val = mm.val; rw [h1]; omega

/-- Window 2 at any point: the key weights. -/
theorem iblk2_apply (c : Dev nD) (t : Fin cfg0.N) (d : Fin 256) (mm : Fin 512) :
    (iblk m c 2 t : Vec Ideal S256x512 .bf16) (ix2 d mm) = WK m c d mm := by
  obtain ⟨h0, h1⟩ := idx2 t
  unfold iblk
  rw [View.read_apply]
  show (V m c main_v1 : S256x512.Idx → EReal) _ = m ((c : Thread nD τ).loc main_arg2) _
  rw [V_v1]
  congr 1
  funext a
  apply Fin.ext
  match a with
  | ⟨0, _⟩ => show win0_2.index t 0 * 256 + 1 * d.val = d.val; rw [h0]; omega
  | ⟨1, _⟩ => show win0_2.index t 1 * 512 + 1 * mm.val = mm.val; rw [h1]; omega

/-- Window 3 at any point: the value weights. -/
theorem iblk3_apply (c : Dev nD) (t : Fin cfg0.N) (d : Fin 256) (mm : Fin 512) :
    (iblk m c 3 t : Vec Ideal S256x512 .bf16) (ix2 d mm) = WV m c d mm := by
  obtain ⟨h0, h1⟩ := idx3 t
  unfold iblk
  rw [View.read_apply]
  show (V m c main_v2 : S256x512.Idx → EReal) _ = m ((c : Thread nD τ).loc main_arg3) _
  rw [V_v2]
  congr 1
  funext a
  apply Fin.ext
  match a with
  | ⟨0, _⟩ => show win0_3.index t 0 * 256 + 1 * d.val = d.val; rw [h0]; omega
  | ⟨1, _⟩ => show win0_3.index t 1 * 512 + 1 * mm.val = mm.val; rw [h1]; omega

/-- Window 4 at any point: the output weights. -/
theorem iblk4_apply (c : Dev nD) (t : Fin cfg0.N) (mm : Fin 512) (d : Fin 256) :
    (iblk m c 4 t : Vec Ideal S512x256 .bf16) (ix2 mm d) = W2 m c mm d := by
  obtain ⟨h0, h1⟩ := idx4 t
  unfold iblk
  rw [View.read_apply]
  show (V m c main_v3 : S512x256.Idx → EReal) _ = m ((c : Thread nD τ).loc main_arg4) _
  rw [V_v3]
  congr 1
  funext a
  apply Fin.ext
  match a with
  | ⟨0, _⟩ => show win0_4.index t 0 * 512 + 1 * mm.val = mm.val; rw [h0]; omega
  | ⟨1, _⟩ => show win0_4.index t 1 * 256 + 1 * d.val = d.val; rw [h1]; omega

/-- Window 5 at any point: the bias, as one row. -/
theorem iblk5_apply (c : Dev nD) (t : Fin cfg0.N) (d : Fin 256) :
    (iblk m c 5 t : Vec Ideal S1x256 .f32) (ix2 0 d) = B2 m c d := by
  obtain ⟨h0, h1⟩ := idx5 t
  have hpos : ((cfg0.win 5).blk t).view.emb (ix2 (0 : Fin 1) d) = (ix2 (0 : Fin 1) d : S1x256.Idx) := by
    funext a
    apply Fin.ext
    match a with
    | ⟨0, _⟩ => show win0_5.index t 0 * 1 + 1 * (0 : Fin 1).val = (0 : Fin 1).val; rw [h0]; simp
    | ⟨1, _⟩ => show win0_5.index t 1 * 256 + 1 * d.val = d.val; rw [h1]; omega
  unfold iblk
  rw [View.read_apply]
  show (V m c main_v4 : S1x256.Idx → EReal) _ = m ((c : Thread nD τ).loc main_arg5) _
  rw [hpos, V_v4]
  exact shapeCast_a_1a_apply _ _ 0 d

end Cert.KernelIdeal.KV

end
-- ==== Proof.KBlocks.lean ====
/-
  From grid points to the result array. After point `n` the two scratch buffers hold the keys and the values of batch
  `n / 4` — stored at the batch's first tile (`n % 4 = 0`), left alone at its other three —, so the output tile at point
  `t` is arrangement K of the attention layer for rows `512 · (t % 4) …` of batch `t / 4`; every point writes its tile
  back to block `(t / 4, t % 4, 0)` of the result array, the 32 blocks tile the array, and so the array ends at the layer's
  value at every index.
-/
import proofs.«411892_j26121991094971_3_alg».proof.Proof.Gen.KernelIdeal.Value
import proofs.«411892_j26121991094971_3_alg».proof.Proof.KPieces
import proofs.«411892_j26121991094971_3_alg».proof.Proof.KInputs

set_option maxRecDepth 16384

noncomputable section

namespace Cert.KernelIdeal.KV

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The batch a grid point works on: four query tiles per batch. -/
def bat (n : ℕ) (h : n < cfg0.N) : Fin 8 := ⟨n / 4, by have : cfg0.N = 32 := N_0; omega⟩

theorem bat_val (n : ℕ) (h : n < cfg0.N) : (bat n h).val = n / 4 := rfl

/-- The tile coordinate of a grid point is its position within the batch. -/
theorem coord1 : ∀ t : Fin cfg0.N, ((grid0.coords t) 1).val = t.val % 4 :=
  (by decide +kernel : ∀ t : Fin grid0.N, ((grid0.coords t) 1).val = t.val % 4)

/-- The result window's block index at a point: (batch, tile, 0). -/
theorem idx6 : ∀ t : Fin cfg0.N, win0_6.index t (0 : Fin 3) = t.val / 4 ∧ win0_6.index t (1 : Fin 3) = t.val % 4
    ∧ win0_6.index t (2 : Fin 3) = 0 :=
  (by decide +kernel : ∀ t : Fin grid0.N, win0_6.index t (0 : Fin 3) = t.val / 4 ∧ win0_6.index t (1 : Fin 3) = t.val % 4
    ∧ win0_6.index t (2 : Fin 3) = 0)

/-- THE SCRATCH AFTER POINT `n`: the keys and the values of batch `n / 4`. -/
theorem scratch_eq (c : Dev nD) : ∀ (n : ℕ) (h : n < cfg0.N) (k : Fin 2048) (mm : Fin 512),
    ((outsAt0 m c n h).2.1 : Vec Ideal S2048x512 .bf16) (ix2 k mm) = Cert.Attn.rowProj (X m c (bat n h) k) (WK m c) mm
    ∧ ((outsAt0 m c n h).2.2 : Vec Ideal S2048x512 .bf16) (ix2 k mm) = Cert.Attn.rowProj (X m c (bat n h) k) (WV m c) mm := by
  intro n
  induction n with
  | zero =>
    intro h k mm
    rw [outsAt0_A m c ⟨0, h⟩ rfl]
    dsimp only
    refine ⟨?_, ?_⟩
    · rw [soutA0_apply]
      simp only [iblk0_apply m c ⟨0, h⟩ (bat 0 h) rfl, iblk2_apply]
    · rw [soutA1_apply]
      simp only [iblk0_apply m c ⟨0, h⟩ (bat 0 h) rfl, iblk3_apply]
  | succ n ih =>
    intro h k mm
    by_cases h0 : (n + 1) % 4 = 0
    · rw [outsAt0_A m c ⟨n + 1, h⟩ h0]
      dsimp only
      refine ⟨?_, ?_⟩
      · rw [soutA0_apply]
        simp only [iblk0_apply m c ⟨n + 1, h⟩ (bat (n + 1) h) rfl, iblk2_apply]
      · rw [soutA1_apply]
        simp only [iblk0_apply m c ⟨n + 1, h⟩ (bat (n + 1) h) rfl, iblk3_apply]
    · rw [outsAt0_B m c ⟨n + 1, h⟩ h0]
      dsimp only
      unfold sout0_B_0 sout0_B_1
      have hb : bat (n + 1) h = bat n (Nat.lt_of_succ_lt h) := Fin.ext (by rw [bat_val, bat_val]; omega)
      rw [hb]
      exact ih (Nat.lt_of_succ_lt h) k mm

/-- THE OUTPUT TILE AFTER POINT `t`, row `r`: the layer's row `512 · (t % 4) + r` of batch `t / 4`. -/
theorem outs_apply (c : Dev nD) (t : Fin cfg0.N) (r : Fin 512) (d : Fin 256) (q : Fin 2048)
    (hq : q.val = 512 * (t.val % 4) + r.val) :
    ((outsAt0 m c t.val t.isLt).1 : Vec Ideal S1x512x256 .f32) (ix3 0 r d)
      = Cert.Attn.GK (X m c) (WQ m c) (WK m c) (WV m c) (W2 m c) (B2 m c) (bat t.val t.isLt) q d := by
  have hq' : q.val = 512 * ((grid0.coords t) 1).val + r.val := by rw [coord1 t]; exact hq
  unfold Cert.Attn.GK
  by_cases h0 : t.val % 4 = 0
  · rw [outsAt0_A m c t h0]
    dsimp only
    rw [outA6_apply _ _ _ _ _ _ _ _ _ _ _ _ _ _ _ _ _ _ _ _ _ _ _ _ _ _ _ r d q hq']
    simp only [iblk0_apply m c t (bat t.val t.isLt) rfl, iblk1_apply, iblk2_apply, iblk3_apply, iblk4_apply, iblk5_apply]
  · rw [outsAt0_B m c t h0]
    dsimp only
    rw [outB6_apply _ _ _ _ _ _ _ _ _ _ _ _ _ _ _ _ _ _ _ _ _ _ _ _ _ _ _ _ _ r d q hq']
    have hN : t.val < 32 := lt_of_lt_of_eq t.isLt (show cfg0.N = 32 from N_0)
    have hlt : t.val - 1 < cfg0.N := Nat.lt_of_le_of_lt (Nat.sub_le _ _) t.isLt
    have hb : bat (t.val - 1) hlt = bat t.val t.isLt := Fin.ext (by rw [bat_val, bat_val]; omega)
    simp only [iblk0_apply m c t (bat t.val t.isLt) rfl, iblk1_apply, iblk4_apply, iblk5_apply,
      (scratch_eq m c (t.val - 1) hlt _ _).1, (scratch_eq m c (t.val - 1) hlt _ _).2, hb]

/-- The layer's value as contents of the result array. -/
abbrev G (c : Dev nD) : Buf (Elt Ideal) ((c : Thread nD τ).loc main_v5) := fun i =>
  Cert.Attn.GK (X m c) (WQ m c) (WK m c) (WV m c) (W2 m c) (B2 m c) (i 0) (i 1) (i 2)

/-- WHAT POINT `t` WRITES BACK is block `t` of the layer's value. -/
theorem flushed_eq (c : Dev nD) (t : Fin cfg0.N) :
    (dats m 0 c).flushed 6 t = ((cfg0.win 6).blk t).view.read (Elt Ideal) (G m c) := by
  rw [Cert.KernelIdeal.Value.flushed6]
  obtain ⟨e0, e1, e2⟩ := idx6 t
  have hN : t.val < 32 := lt_of_lt_of_eq t.isLt (show cfg0.N = 32 from N_0)
  funext j
  have hj1 : (j 1).val < 512 := (j 1).isLt
  have hj2 : (j 2).val < 256 := (j 2).isLt
  have hj0 : (j 0).val < 1 := (j 0).isLt
  show ((outsAt0 m c t.val t.isLt).1 : Vec Ideal S1x512x256 .f32) j = G m c (((cfg0.win 6).blk t).view.emb j)
  have hj : j = ix3 (0 : Fin 1) (⟨(j 1).val, hj1⟩ : Fin 512) (⟨(j 2).val, hj2⟩ : Fin 256) := by
    funext a
    match a with
    | ⟨0, _⟩ => exact Fin.ext (by show (j 0).val = 0; omega)
    | ⟨1, _⟩ => rfl
    | ⟨2, _⟩ => rfl
  rw [hj, outs_apply m c t ⟨(j 1).val, hj1⟩ ⟨(j 2).val, hj2⟩ ⟨512 * (t.val % 4) + (j 1).val, by omega⟩ rfl]
  show _ = Cert.Attn.GK (X m c) (WQ m c) (WK m c) (WV m c) (W2 m c) (B2 m c) _ _ _
  congr 1
  · apply Fin.ext
    show t.val / 4 = win0_6.index t (0 : Fin 3) * 1 + 1 * 0
    omega
  · apply Fin.ext
    show 512 * (t.val % 4) + (j 1).val = win0_6.index t (1 : Fin 3) * 512 + 1 * (j 1).val
    omega
  · apply Fin.ext
    show (j 2).val = win0_6.index t (2 : Fin 3) * 256 + 1 * (j 2).val
    omega

/-- Every index of the result array lies in some point's block: the blocks tile it. -/
theorem cover (i : S8x2048x256.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 256 := (i 2).isLt
  have hN : cfg0.N = 32 := N_0
  let t : Fin cfg0.N := ⟨4 * (i 0).val + (i 1).val / 512, by omega⟩
  have ht : t.val = 4 * (i 0).val + (i 1).val / 512 := rfl
  obtain ⟨e0, e1, e2⟩ := idx6 t
  refine ⟨t, flush0_6 t, ?_⟩
  show i ∈ ((View.whole main_v5).slice (win0_6.rect t)).set
  rw [View.set_slice_whole, Rect.mem_set_unit]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 512 ≤ (i 1).val ∧ (i 1).val < win0_6.index t (1 : Fin 3) * 512 + 512
    omega
  | ⟨2, _⟩ =>
    show win0_6.index t (2 : Fin 3) * 256 ≤ (i 2).val ∧ (i 2).val < win0_6.index t (2 : Fin 3) * 256 + 256
    omega

/-- THE RESULT ARRAY after the run: the layer's value at every index. -/
theorem final (c : Dev nD) : (dats m 0 c).arrAt 6 cfg0.N = G m c :=
  (dats m 0 c).arrAt_eq_of_cover 6 (G m c) (fun t _ => flushed_eq m c t) (cover)

/-- The kernel's run, read: the result array at the layer's value, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.KernelIdeal.KV

end
-- ==== Proof.Finite.lean ====
/-
  The precondition read: "every float input is finite" — the conjunction of six `all(|a| < +∞)` reductions — gives, entry by
  entry, that the features and the query and key weights are real numbers (an extended real whose absolute value is below
  +∞ is neither infinity).
-/
import proofs.«411892_j26121991094971_3_alg».proof.Defs
import proofs.«411892_j26121991094971_3_alg».proof.Proof.Gen.KernelIdeal
import proofs.«411892_j26121991094971_3_alg».proof.Proof.Gen.Pre_finite_inputs
import Idealize.ShloMosaic.Lib.ReduceAll
import Idealize.ShloMosaic.Lib.ValueIdx

noncomputable section

namespace Cert.KernelIdeal.KV

open Cert.KernelIdeal Idealize.ShloMosaic Idealize.ShloMosaic.TcCoe Idealize.ShloMosaic.ValueIdx Idealize.SL.Sem

/-- An extended real whose absolute value `max x (-x)` is strictly below the word of `+∞` is a real number. -/
private theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

/-- One `all(|a| < +∞)` block read back: every entry of `a` is a real number. -/
private theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a) (broadcastInDim s ![] hb (constant Cert.Pre_finite_inputs.S_ .f32 0x7F800000#32)))
          (constantI Cert.Pre_finite_inputs.S_ 1 1#1) hr hu ValueIdx.ix0 = 1#1) :
    ∀ i, ∃ r : ℝ, a i = (r : EReal) := by
  intro i
  -- the scalar shape has a single index, so the reduction over all axes reads every entry
  haveI : Subsingleton Cert.Pre_finite_inputs.S_.Idx := ⟨fun a b => funext fun d => d.elim0⟩
  have := Host.reduce_andi_all _ _ hr hu ValueIdx.ix0 e i
  exact real_of_abs_lt_inf (a i) this

/-- Under the precondition the features, the query weights and the key weights hold real numbers at every index. -/
theorem real_of_pre (m : (ℓ : Loc nD τ sig) → Buf (Elt Ideal) ℓ) (h : Cert.Pre_KernelIdeal m) (c : Dev nD) :
    (∀ i, ∃ r : ℝ, m ((c : Thread nD τ).loc main_arg0) i = (r : EReal))
    ∧ (∀ i, ∃ r : ℝ, m ((c : Thread nD τ).loc main_arg1) i = (r : EReal))
    ∧ (∀ i, ∃ r : ℝ, m ((c : Thread nD τ).loc main_arg2) i = (r : EReal)) := by
  have h0 := congrFun (h c) ValueIdx.ix0
  unfold Cert.Pre_finite_inputs.fn Cert.Pre_finite_inputs.fn_part1 at h0
  dsimp only at h0
  -- the conjunction is ((((arg0 ∧ arg1) ∧ arg2) ∧ arg3) ∧ arg4) ∧ arg5: peel the last three blocks, keep the first three
  obtain ⟨h0, -⟩ := IntOp.andi_eq_one.1 h0
  obtain ⟨h0, -⟩ := IntOp.andi_eq_one.1 h0
  obtain ⟨h0, -⟩ := IntOp.andi_eq_one.1 h0
  obtain ⟨h0, e2⟩ := IntOp.andi_eq_one.1 h0
  obtain ⟨e0, e1⟩ := IntOp.andi_eq_one.1 h0
  exact ⟨real_of_all _ _ _ _ e0, real_of_all _ _ _ _ e1, real_of_all _ _ _ _ e2⟩

end Cert.KernelIdeal.KV

end
-- ==== Proof.RefTerm.lean ====
/-
  The reference's result as one term of its six argument arrays: the three projections, the scaled scores, the
  softmax along the key axis (row maximum, exponential, row sum, quotient), the weighted values, the output
  projection with its bias, the leaky ReLU and the residual — each stage the host operation the program applies,
  in the program's order.
-/
import proofs.«411892_j26121991094971_3_alg».proof.Proof.Gen.ReferenceIdeal

noncomputable section

namespace Cert.ReferenceIdeal.RefValue

open Cert.ReferenceIdeal Idealize.ShloMosaic
open Cert.ReferenceIdeal.Facts₀ Cert.ReferenceIdeal.Facts

variable {F : FTy → Type} [FloatOps F]

/-- Features times a 256 × 512 weight matrix, for every batch and row. -/
def projT (a0 : FVec F S8x2048x256 .f32) (w : FVec F S256x512 .f32) : FVec F S8x2048x512 .f32 :=
  Host.dotGeneral dot_S8x2048x256_S256x512_S8x2048x512_2_0_01_1_n_n none a0 w

/-- The scores: queries against keys within a batch, times the temperature. -/
def scoresT (q k : FVec F S8x2048x512 .f32) : FVec F S8x2048x2048 .f32 :=
  mulf (Host.dotGeneral dot_S8x2048x512_S8x2048x512_S8x2048x2048_2_2_1_1_0_0 none q k)
    (broadcastInDim S8x2048x2048 ![] bcast_S_S8x2048x2048 (constant S_ .f32 0x3D3504F3#32))

/-- Each row's maximum (taken once more against −∞), spread back along the key axis. -/
def maxT (s : FVec F S8x2048x2048 .f32) : FVec F S8x2048x2048 .f32 :=
  broadcastInDim S8x2048x2048 ![0, 1, 2] bcast_S8x2048x1_S8x2048x2048_0_1_2
    (broadcastInDim S8x2048x1 ![0, 1] bcast_S8x2048_S8x2048x1_0_1
      (maximumf (broadcastInDim S8x2048 ![] bcast_S_S8x2048 (constant S_ .f32 0xFF800000#32))
        (Host.reduce FloatOps.maximumf s (constant S_ .f32 0xFF800000#32) reducesTo_S8x2048x2048_S8x2048_d2 h_S_)))

/-- The exponentials of the scores less their row maximum. -/
def expT (s : FVec F S8x2048x2048 .f32) : FVec F S8x2048x2048 .f32 :=
  Host.exp (subf s (maxT s))

/-- The softmax weights: each exponential over its row's sum. -/
def softT (s : FVec F S8x2048x2048 .f32) : FVec F S8x2048x2048 .f32 :=
  Host.divf (expT s)
    (broadcastInDim S8x2048x2048 ![0, 1, 2] bcast_S8x2048x1_S8x2048x2048_0_1_2
      (broadcastInDim S8x2048x1 ![0, 1] bcast_S8x2048_S8x2048x1_0_1
        (Host.reduceAdd (expT s) (constant S_ .f32 0x00000000#32) reducesTo_S8x2048x2048_S8x2048_d2 h_S_)))

/-- The weighted values through the output projection, plus the bias. -/
def linT (attn : FVec F S8x2048x2048 .f32) (v : FVec F S8x2048x512 .f32) (a4 : FVec F S512x256 .f32)
    (a5 : FVec F S256 .f32) : FVec F S8x2048x256 .f32 :=
  addf (Host.dotGeneral dot_S8x2048x512_S512x256_S8x2048x256_2_0_01_1_n_n none
      (Host.dotGeneral dot_S8x2048x2048_S8x2048x512_S8x2048x512_2_1_1_2_0_0 none attn v) a4)
    (broadcastInDim S8x2048x256 ![0, 1, 2] bcast_S1x1x256_S8x2048x256_0_1_2
      (broadcastInDim S1x1x256 ![2] bcast_S256_S1x1x256_2 a5))

/-- The leaky ReLU, as the host writes it: a comparison with the zero splat selecting between `y` and `slope · y`. -/
def lreluT (y : FVec F S8x2048x256 .f32) : FVec F S8x2048x256 .f32 :=
  select (cmpf .oge y (broadcastInDim S8x2048x256 ![] bcast_S_S8x2048x256 (constant S_ .f32 0x00000000#32))) y
    (mulf (broadcastInDim S8x2048x256 ![] bcast_S_S8x2048x256 (id (constant S_ .f32 0x3E4CCCCD#32))) y)

/-- The reference's result array as a function of its six arguments. -/
def refOut (a0 : FVec F S8x2048x256 .f32) (a1 a2 a3 : FVec F S256x512 .f32) (a4 : FVec F S512x256 .f32)
    (a5 : FVec F S256 .f32) : FVec F S8x2048x256 .f32 :=
  addf (lreluT (linT (softT (scoresT (projT a0 a1) (projT a0 a2))) (projT a0 a3) a4 a5)) a0

end Cert.ReferenceIdeal.RefValue

end
-- ==== Proof.RefRun.lean ====
/-
  The reference program's run: its host operations in order (the leaky ReLU's and its select's operations at the place
  of their calls), every weakly fair execution terminating with the result array at `refOut` of the argument arrays
  and the arguments unchanged.
-/
import proofs.«411892_j26121991094971_3_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The reference's 35 host operations, in order: the three projections, the scores and their temperature, the row
    maximum (a reduction, then the maximum with the −∞ splat) spread back, the exponentials, the row sum spread back,
    the quotient, the weighted values, the output projection and its bias, the slope constant; then the leaky ReLU's
    six (the zero, its splat, the comparison, the slope converted to its own type, its splat, the product) and its
    select's one, written into that call's buffers; then the residual sum. -/
abbrev ops : List (HloOp τ sig (Elt F)) :=
  [ binary main_arg0 main_arg1 main_v0 ((fun l r => Host.dotGeneral dot_S8x2048x256_S256x512_S8x2048x512_2_0_01_1_n_n none l r) : (⟨S8x2048x256, .f32⟩ : BufTy).Contents (Elt F) → (⟨S256x512, .f32⟩ : BufTy).Contents (Elt F) → (⟨S8x2048x512, .f32⟩ : BufTy).Contents (Elt F)),
    binary main_arg0 main_arg2 main_v1 ((fun l r => Host.dotGeneral dot_S8x2048x256_S256x512_S8x2048x512_2_0_01_1_n_n none l r) : (⟨S8x2048x256, .f32⟩ : BufTy).Contents (Elt F) → (⟨S256x512, .f32⟩ : BufTy).Contents (Elt F) → (⟨S8x2048x512, .f32⟩ : BufTy).Contents (Elt F)),
    binary main_arg0 main_arg3 main_v2 ((fun l r => Host.dotGeneral dot_S8x2048x256_S256x512_S8x2048x512_2_0_01_1_n_n none l r) : (⟨S8x2048x256, .f32⟩ : BufTy).Contents (Elt F) → (⟨S256x512, .f32⟩ : BufTy).Contents (Elt F) → (⟨S8x2048x512, .f32⟩ : BufTy).Contents (Elt F)),
    binary main_v0 main_v1 main_v3 ((fun l r => Host.dotGeneral dot_S8x2048x512_S8x2048x512_S8x2048x2048_2_2_1_1_0_0 none l r) : (⟨S8x2048x512, .f32⟩ : BufTy).Contents (Elt F) → (⟨S8x2048x512, .f32⟩ : BufTy).Contents (Elt F) → (⟨S8x2048x2048, .f32⟩ : BufTy).Contents (Elt F)),
    nullary main_cst (constant S_ .f32 0x3D3504F3#32),
    unary main_cst main_v4 (broadcastInDim S8x2048x2048 ![] bcast_S_S8x2048x2048 : (⟨S_, .f32⟩ : BufTy).Contents (Elt F) → (⟨S8x2048x2048, .f32⟩ : BufTy).Contents (Elt F)),
    binary main_v3 main_v4 main_v5 (mulf : (⟨S8x2048x2048, .f32⟩ : BufTy).Contents (Elt F) → (⟨S8x2048x2048, .f32⟩ : BufTy).Contents (Elt F) → (⟨S8x2048x2048, .f32⟩ : BufTy).Contents (Elt F)),
    nullary main_cst_0 (constant S_ .f32 0xFF800000#32),
    binary main_v5 main_cst_0 main_v6 ((fun x v => Host.reduce FloatOps.maximumf x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    nullary main_cst_1 (constant S_ .f32 0xFF800000#32),
    unary main_cst_1 main_v7 (broadcastInDim S8x2048 ![] bcast_S_S8x2048 : (⟨S_, .f32⟩ : BufTy).Contents (Elt F) → (⟨S8x2048, .f32⟩ : BufTy).Contents (Elt F)),
    binary main_v7 main_v6 main_v8 (maximumf : (⟨S8x2048, .f32⟩ : BufTy).Contents (Elt F) → (⟨S8x2048, .f32⟩ : BufTy).Contents (Elt F) → (⟨S8x2048, .f32⟩ : BufTy).Contents (Elt F)),
    unary main_v8 main_v9 (broadcastInDim S8x2048x1 ![0, 1] bcast_S8x2048_S8x2048x1_0_1 : (⟨S8x2048, .f32⟩ : BufTy).Contents (Elt F) → (⟨S8x2048x1, .f32⟩ : BufTy).Contents (Elt F)),
    unary main_v9 main_v10 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v5 main_v10 main_v11 (subf : (⟨S8x2048x2048, .f32⟩ : BufTy).Contents (Elt F) → (⟨S8x2048x2048, .f32⟩ : BufTy).Contents (Elt F) → (⟨S8x2048x2048, .f32⟩ : BufTy).Contents (Elt F)),
    unary main_v11 main_v12 (Host.exp : (⟨S8x2048x2048, .f32⟩ : BufTy).Contents (Elt F) → (⟨S8x2048x2048, .f32⟩ : BufTy).Contents (Elt F)),
    nullary main_cst_2 (constant S_ .f32 0x00000000#32),
    binary main_v12 main_cst_2 main_v13 ((fun x v => Host.reduceAdd x v reducesTo_S8x2048x2048_S8x2048_d2 h_S_) : (⟨S8x2048x2048, .f32⟩ : BufTy).Contents (Elt F) → (⟨S_, .f32⟩ : BufTy).Contents (Elt F) → (⟨S8x2048, .f32⟩ : BufTy).Contents (Elt F)),
    unary main_v13 main_v14 (broadcastInDim S8x2048x1 ![0, 1] bcast_S8x2048_S8x2048x1_0_1 : (⟨S8x2048, .f32⟩ : BufTy).Contents (Elt F) → (⟨S8x2048x1, .f32⟩ : BufTy).Contents (Elt F)),
    unary main_v14 main_v15 (broadcastInDim S8x2048x2048 ![0, 1, 2] bcast_S8x2048x1_S8x2048x2048_0_1_2 : (⟨S8x2048x1, .f32⟩ : BufTy).Contents (Elt F) → (⟨S8x2048x2048, .f32⟩ : BufTy).Contents (Elt F)),
    binary main_v12 main_v15 main_v16 (Host.divf : (⟨S8x2048x2048, .f32⟩ : BufTy).Contents (Elt F) → (⟨S8x2048x2048, .f32⟩ : BufTy).Contents (Elt F) → (⟨S8x2048x2048, .f32⟩ : BufTy).Contents (Elt F)),
    binary main_v16 main_v2 main_v17 ((fun l r => Host.dotGeneral dot_S8x2048x2048_S8x2048x512_S8x2048x512_2_1_1_2_0_0 none l r) : (⟨S8x2048x2048, .f32⟩ : BufTy).Contents (Elt F) → (⟨S8x2048x512, .f32⟩ : BufTy).Contents (Elt F) → (⟨S8x2048x512, .f32⟩ : BufTy).Contents (Elt F)),
    binary main_v17 main_arg4 main_v18 ((fun l r => Host.dotGeneral dot_S8x2048x512_S512x256_S8x2048x256_2_0_01_1_n_n none l r) : (⟨S8x2048x512, .f32⟩ : BufTy).Contents (Elt F) → (⟨S512x256, .f32⟩ : BufTy).Contents (Elt F) → (⟨S8x2048x256, .f32⟩ : BufTy).Contents (Elt F)),
    unary main_arg5 main_v19 (broadcastInDim S1x1x256 ![2] bcast_S256_S1x1x256_2 : (⟨S256, .f32⟩ : BufTy).Contents (Elt F) → (⟨S1x1x256, .f32⟩ : BufTy).Contents (Elt F)),
    unary main_v19 main_v20 (broadcastInDim S8x2048x256 ![0, 1, 2] bcast_S1x1x256_S8x2048x256_0_1_2 : (⟨S1x1x256, .f32⟩ : BufTy).Contents (Elt F) → (⟨S8x2048x256, .f32⟩ : BufTy).Contents (Elt F)),
    binary main_v18 main_v20 main_v21 (addf : (⟨S8x2048x256, .f32⟩ : BufTy).Contents (Elt F) → (⟨S8x2048x256, .f32⟩ : BufTy).Contents (Elt F) → (⟨S8x2048x256, .f32⟩ : BufTy).Contents (Elt F)),
    nullary main_cst_3 (constant S_ .f32 0x3E4CCCCD#32),
    TRef.nullary main_call0.cst (constant S_ .f32 0x00000000#32),
    TRef.unary main_call0.cst main_call0.v0 (broadcastInDim S8x2048x256 ![] bcast_S_S8x2048x256),
    TRef.binary (.of main_v21) main_call0.v0 main_call0.v1 (cmpf .oge),
    TRef.unary (.of main_cst_3) main_call0.v2 id,
    TRef.unary main_call0.v2 main_call0.v3 (broadcastInDim S8x2048x256 ![] bcast_S_S8x2048x256),
    TRef.binary main_call0.v3 (.of main_v21) main_call0.v4 mulf,
    TRef.ternary main_call0.v1 (.of main_v21) main_call0.v4 main_call0.call0.v0 select,
    binary main_v22 main_arg0 main_v23 (addf : (⟨S8x2048x256, .f32⟩ : BufTy).Contents (Elt F) → (⟨S8x2048x256, .f32⟩ : BufTy).Contents (Elt F) → (⟨S8x2048x256, .f32⟩ : BufTy).Contents (Elt F)) ]

set_option maxRecDepth 1024 in
/-- The reference is that straight line: the two functions' bodies unfolded at their calls and the records at their
    fields, both sides are one chain of host steps once sequencing is reassociated. -/
theorem main_eq (c : Dev nD) : main (F := F) c = seq ops := by
  simp only [main, fn_leaky_relu.body, fn_where.body, seq, bind_assoc, pure_bind]

/-- The signature scopes no TensorCore buffer. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., binary_bufs_sub .., binary_bufs_sub .., binary_bufs_sub .., nullary_bufs_sub .., unary_bufs_sub ..,
    binary_bufs_sub .., nullary_bufs_sub .., binary_bufs_sub .., nullary_bufs_sub .., unary_bufs_sub .., binary_bufs_sub ..,
    unary_bufs_sub .., unary_bufs_sub .., binary_bufs_sub .., unary_bufs_sub .., nullary_bufs_sub .., binary_bufs_sub ..,
    unary_bufs_sub .., unary_bufs_sub .., binary_bufs_sub .., binary_bufs_sub .., binary_bufs_sub .., unary_bufs_sub ..,
    unary_bufs_sub .., binary_bufs_sub .., nullary_bufs_sub ..,
    nullary_bufs_sub .., unary_bufs_sub .., binary_bufs_sub .., unary_bufs_sub .., unary_bufs_sub .., binary_bufs_sub ..,
    ternary_bufs_sub .., binary_bufs_sub ..⟩

/-- On every device, for any float values, from any memory with zero counters: every weakly fair execution of the
    reference terminates with its result array at `refOut` of the arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v23)
          = refOut (m ((c : Thread nD τ).loc main_arg0)) (m ((c : Thread nD τ).loc main_arg1))
              (m ((c : Thread nD τ).loc main_arg2)) (m ((c : Thread nD τ).loc main_arg3))
              (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c main_v23).trans (by after_results_simp; rfl),
      (h c main_arg0).trans (by after_results_simp),
      (h c main_arg1).trans (by after_results_simp),
      (h c main_arg2).trans (by after_results_simp),
      (h c main_arg3).trans (by after_results_simp),
      (h c main_arg4).trans (by after_results_simp),
      (h c main_arg5).trans (by after_results_simp)⟩)
    (run_seq scopedRefs_eq scopedSems_eq defs main (fun _ => ops) main_eq (fun _ => ops_sub) m ρ)

end Cert.ReferenceIdeal.RefValue

end
-- ==== Proof.RefValue.lean ====
/-
  The reference's result read at an index: `refOut` at (b, n, d) is arrangement R of the attention layer
  (`Cert.Attn.GR`) of the argument arrays read at their coordinates — each host product a sum over its contracted
  axis, the row maximum a fold of `max` from −∞, the row sum the zero word plus a sum, every broadcast a re-indexing.

  One lemma per stage, each at explicit coordinates: a projection is a feature row against a weight column; a score
  is a query row against a key row of the same batch, times the temperature; the spread row maximum, the exponential
  and the quotient by the row sum make arrangement R's softmax weight; the weights against a value column, through
  the output projection, plus the bias entry; the leaky ReLU entry by entry; and the residual. Each product's operand
  indices are read off its dimension numbers axis by axis (a batch axis and a free axis read the result index, the
  contracted axis reads the summation coordinate).
-/
import proofs.«411892_j26121991094971_3_alg».proof.Proof.RefTerm
import proofs.«411892_j26121991094971_3_alg».proof.Proof.Spec
import Idealize.ShloMosaic.Lib.ValueIdx
import Idealize.ShloMosaic.Lib.IdealHost
import Idealize.ShloMosaic.PureOps.Ideal.Laws

noncomputable section

namespace Cert.ReferenceIdeal.RefValue

open Cert.ReferenceIdeal Idealize.ShloMosaic Idealize.ShloMosaic.ValueIdx
open Cert.ReferenceIdeal.Facts₀ Cert.ReferenceIdeal.Facts

/-! ### The projections: features times a weight matrix -/

private theorem lhs_proj_0 (i : S8x2048x512.Idx) (q : dot_S8x2048x256_S256x512_S8x2048x512_2_0_01_1_n_n.contr.Idx) :
    (dot_S8x2048x256_S256x512_S8x2048x512_2_0_01_1_n_n.lhsIdx i q 0).val = (i 0).val := by
  unfold DotDims.lhsIdx
  rw [dif_neg (show ¬(0 : Fin S8x2048x256.rank) ∈ dot_S8x2048x256_S256x512_S8x2048x512_2_0_01_1_n_n.lhsBatch by decide), dif_pos (show (0 : Fin S8x2048x256.rank) ∈ dot_S8x2048x256_S256x512_S8x2048x512_2_0_01_1_n_n.lhsNonContracting by decide)]
  rfl
private theorem lhs_proj_1 (i : S8x2048x512.Idx) (q : dot_S8x2048x256_S256x512_S8x2048x512_2_0_01_1_n_n.contr.Idx) :
    (dot_S8x2048x256_S256x512_S8x2048x512_2_0_01_1_n_n.lhsIdx i q 1).val = (i 1).val := by
  unfold DotDims.lhsIdx
  rw [dif_neg (show ¬(1 : Fin S8x2048x256.rank) ∈ dot_S8x2048x256_S256x512_S8x2048x512_2_0_01_1_n_n.lhsBatch by decide), dif_pos (show (1 : Fin S8x2048x256.rank) ∈ dot_S8x2048x256_S256x512_S8x2048x512_2_0_01_1_n_n.lhsNonContracting by decide)]
  rfl
private theorem lhs_proj_2 (i : S8x2048x512.Idx) (q : dot_S8x2048x256_S256x512_S8x2048x512_2_0_01_1_n_n.contr.Idx) :
    (dot_S8x2048x256_S256x512_S8x2048x512_2_0_01_1_n_n.lhsIdx i q 2).val = (q ⟨0, by decide⟩).val :=
  dot_S8x2048x256_S256x512_S8x2048x512_2_0_01_1_n_n.lhsIdx_val_of_single rfl i q
private theorem rhs_proj_0 (i : S8x2048x512.Idx) (q : dot_S8x2048x256_S256x512_S8x2048x512_2_0_01_1_n_n.contr.Idx) :
    (dot_S8x2048x256_S256x512_S8x2048x512_2_0_01_1_n_n.rhsIdx i q 0).val = (q ⟨0, by decide⟩).val :=
  dot_S8x2048x256_S256x512_S8x2048x512_2_0_01_1_n_n.rhsIdx_val_of_single rfl i q
private theorem rhs_proj_1 (i : S8x2048x512.Idx) (q : dot_S8x2048x256_S256x512_S8x2048x512_2_0_01_1_n_n.contr.Idx) :
    (dot_S8x2048x256_S256x512_S8x2048x512_2_0_01_1_n_n.rhsIdx i q 1).val = (i 2).val := by
  unfold DotDims.rhsIdx
  rw [dif_neg (show ¬(1 : Fin S256x512.rank) ∈ dot_S8x2048x256_S256x512_S8x2048x512_2_0_01_1_n_n.rhsBatch by decide), dif_pos (show (1 : Fin S256x512.rank) ∈ dot_S8x2048x256_S256x512_S8x2048x512_2_0_01_1_n_n.rhsNonContracting by decide)]
  rfl

/-- A projection at (b, n, mm): row (b, n) of the features against column mm of the weights. -/
theorem projT_apply (a0 : FVec Ideal S8x2048x256 .f32) (w : FVec Ideal S256x512 .f32) (b : Fin 8) (n : Fin 2048)
    (mm : Fin 512) :
    projT (F := Ideal) a0 w (ix3 b n mm)
      = Cert.Attn.rowProj (fun d => a0 (ix3 b n d)) (fun d mm => w (ix2 d mm)) mm := by
  unfold projT Cert.Attn.rowProj
  simp only [Host.dotGeneral]
  rw [Ideal.dotGeneral_apply, ← Equiv.sum_comp (contrEquiv1 dot_S8x2048x256_S256x512_S8x2048x512_2_0_01_1_n_n 256 rfl rfl).symm]
  refine Finset.sum_congr rfl fun k _ => ?_
  have hk := contrEquiv1_symm_val dot_S8x2048x256_S256x512_S8x2048x512_2_0_01_1_n_n 256 rfl rfl k
  have el : dot_S8x2048x256_S256x512_S8x2048x512_2_0_01_1_n_n.lhsIdx (ix3 b n mm) ((contrEquiv1 dot_S8x2048x256_S256x512_S8x2048x512_2_0_01_1_n_n 256 rfl rfl).symm k) = ix3 b n k := funext fun a => Fin.ext (by
    match a with
    | ⟨0, _⟩ => exact lhs_proj_0 _ _
    | ⟨1, _⟩ => exact lhs_proj_1 _ _
    | ⟨2, _⟩ => exact (lhs_proj_2 _ _).trans hk)
  have er : dot_S8x2048x256_S256x512_S8x2048x512_2_0_01_1_n_n.rhsIdx (ix3 b n mm) ((contrEquiv1 dot_S8x2048x256_S256x512_S8x2048x512_2_0_01_1_n_n 256 rfl rfl).symm k) = ix2 k mm := funext fun a => Fin.ext (by
    match a with
    | ⟨0, _⟩ => exact (rhs_proj_0 _ _).trans hk
    | ⟨1, _⟩ => exact rhs_proj_1 _ _)
  rw [el, er]

/-! ### The scores -/

private theorem lhs_scores_0 (i : S8x2048x2048.Idx) (q : dot_S8x2048x512_S8x2048x512_S8x2048x2048_2_2_1_1_0_0.contr.Idx) :
    (dot_S8x2048x512_S8x2048x512_S8x2048x2048_2_2_1_1_0_0.lhsIdx i q 0).val = (i 0).val := by
  unfold DotDims.lhsIdx
  rw [dif_pos (show (0 : Fin S8x2048x512.rank) ∈ dot_S8x2048x512_S8x2048x512_S8x2048x2048_2_2_1_1_0_0.lhsBatch by decide)]
  rfl
private theorem lhs_scores_1 (i : S8x2048x2048.Idx) (q : dot_S8x2048x512_S8x2048x512_S8x2048x2048_2_2_1_1_0_0.contr.Idx) :
    (dot_S8x2048x512_S8x2048x512_S8x2048x2048_2_2_1_1_0_0.lhsIdx i q 1).val = (i 1).val := by
  unfold DotDims.lhsIdx
  rw [dif_neg (show ¬(1 : Fin S8x2048x512.rank) ∈ dot_S8x2048x512_S8x2048x512_S8x2048x2048_2_2_1_1_0_0.lhsBatch by decide), dif_pos (show (1 : Fin S8x2048x512.rank) ∈ dot_S8x2048x512_S8x2048x512_S8x2048x2048_2_2_1_1_0_0.lhsNonContracting by decide)]
  rfl
private theorem lhs_scores_2 (i : S8x2048x2048.Idx) (q : dot_S8x2048x512_S8x2048x512_S8x2048x2048_2_2_1_1_0_0.contr.Idx) :
    (dot_S8x2048x512_S8x2048x512_S8x2048x2048_2_2_1_1_0_0.lhsIdx i q 2).val = (q ⟨0, by decide⟩).val :=
  dot_S8x2048x512_S8x2048x512_S8x2048x2048_2_2_1_1_0_0.lhsIdx_val_of_single rfl i q
private theorem rhs_scores_0 (i : S8x2048x2048.Idx) (q : dot_S8x2048x512_S8x2048x512_S8x2048x2048_2_2_1_1_0_0.contr.Idx) :
    (dot_S8x2048x512_S8x2048x512_S8x2048x2048_2_2_1_1_0_0.rhsIdx i q 0).val = (i 0).val := by
  unfold DotDims.rhsIdx
  rw [dif_pos (show (0 : Fin S8x2048x512.rank) ∈ dot_S8x2048x512_S8x2048x512_S8x2048x2048_2_2_1_1_0_0.rhsBatch by decide)]
  rfl
private theorem rhs_scores_1 (i : S8x2048x2048.Idx) (q : dot_S8x2048x512_S8x2048x512_S8x2048x2048_2_2_1_1_0_0.contr.Idx) :
    (dot_S8x2048x512_S8x2048x512_S8x2048x2048_2_2_1_1_0_0.rhsIdx i q 1).val = (i 2).val := by
  unfold DotDims.rhsIdx
  rw [dif_neg (show ¬(1 : Fin S8x2048x512.rank) ∈ dot_S8x2048x512_S8x2048x512_S8x2048x2048_2_2_1_1_0_0.rhsBatch by decide), dif_pos (show (1 : Fin S8x2048x512.rank) ∈ dot_S8x2048x512_S8x2048x512_S8x2048x2048_2_2_1_1_0_0.rhsNonContracting by decide)]
  rfl
private theorem rhs_scores_2 (i : S8x2048x2048.Idx) (q : dot_S8x2048x512_S8x2048x512_S8x2048x2048_2_2_1_1_0_0.contr.Idx) :
    (dot_S8x2048x512_S8x2048x512_S8x2048x2048_2_2_1_1_0_0.rhsIdx i q 2).val = (q ⟨0, by decide⟩).val :=
  dot_S8x2048x512_S8x2048x512_S8x2048x2048_2_2_1_1_0_0.rhsIdx_val_of_single rfl i q

/-- A score at (b, n, k'): query row (b, n) against key row (b, k'), the finished product times the temperature. -/
theorem scoresT_apply (q kk : FVec Ideal S8x2048x512 .f32) (b : Fin 8) (n k' : Fin 2048) :
    scoresT (F := Ideal) q kk (ix3 b n k')
      = (∑ mm : Fin 512, q (ix3 b n mm) * kk (ix3 b k' mm)) * Cert.Attn.temp := by
  unfold scoresT
  rw [mulf_apply, broadcastInDim_scalar_apply, constant_apply]
  simp only [Host.dotGeneral]
  refine congrArg (· * Cert.Attn.temp) ?_
  rw [Ideal.dotGeneral_apply, ← Equiv.sum_comp (contrEquiv1 dot_S8x2048x512_S8x2048x512_S8x2048x2048_2_2_1_1_0_0 512 rfl rfl).symm]
  refine Finset.sum_congr rfl fun k _ => ?_
  have hk := contrEquiv1_symm_val dot_S8x2048x512_S8x2048x512_S8x2048x2048_2_2_1_1_0_0 512 rfl rfl k
  have el : dot_S8x2048x512_S8x2048x512_S8x2048x2048_2_2_1_1_0_0.lhsIdx (ix3 b n k') ((contrEquiv1 dot_S8x2048x512_S8x2048x512_S8x2048x2048_2_2_1_1_0_0 512 rfl rfl).symm k) = ix3 b n k := funext fun a => Fin.ext (by
    match a with
    | ⟨0, _⟩ => exact lhs_scores_0 _ _
    | ⟨1, _⟩ => exact lhs_scores_1 _ _
    | ⟨2, _⟩ => exact (lhs_scores_2 _ _).trans hk)
  have er : dot_S8x2048x512_S8x2048x512_S8x2048x2048_2_2_1_1_0_0.rhsIdx (ix3 b n k') ((contrEquiv1 dot_S8x2048x512_S8x2048x512_S8x2048x2048_2_2_1_1_0_0 512 rfl rfl).symm k) = ix3 b k' k := funext fun a => Fin.ext (by
    match a with
    | ⟨0, _⟩ => exact rhs_scores_0 _ _
    | ⟨1, _⟩ => exact rhs_scores_1 _ _
    | ⟨2, _⟩ => exact (rhs_scores_2 _ _).trans hk)
  rw [el, er]

/-! ### The two keepdims broadcasts and the key axis put back -/

/-- A column [8, 2048, 1] spread along the key axis reads the column's one entry. -/
private theorem spread_apply {α : Type} (x : S8x2048x1.Idx → α) (b : Fin 8) (n k' : Fin 2048) :
    broadcastInDim S8x2048x2048 ![0, 1, 2] bcast_S8x2048x1_S8x2048x2048_0_1_2 x (ix3 b n k') = x (ix3 b n (0 : Fin 1)) :=
by
  unfold broadcastInDim
  refine congrArg x (funext fun a => Fin.ext ?_)
  match a with
  | ⟨0, _⟩ => rfl
  | ⟨1, _⟩ => rfl
  | ⟨2, _⟩ => rfl

/-- A [8, 2048] array given a trailing unit axis reads the same entry. -/
private theorem keepdims_apply {α : Type} (x : S8x2048.Idx → α) (b : Fin 8) (n : Fin 2048) (z : Fin 1) :
    broadcastInDim S8x2048x1 ![0, 1] bcast_S8x2048_S8x2048x1_0_1 x (ix3 b n z) = x (ix2 b n) :=
by
  unfold broadcastInDim
  refine congrArg x (funext fun a => Fin.ext ?_)
  match a with
  | ⟨0, _⟩ => rfl
  | ⟨1, _⟩ => rfl

/-- The key axis is the reduced one. -/
private theorem red : S8x2048x2048.Reduces [2] S8x2048 := by decide

/-- Row (b, n) with key coordinate k put back is (b, n, k). -/
private theorem lift_row (b : Fin 8) (n : Fin 2048) (k : Fin (S8x2048x2048.size 2)) :
    red.lift (ix2 b n) k = ix3 b n (⟨k.val, k.isLt⟩ : Fin 2048) := by
  funext c; apply Fin.ext
  match c with
  | ⟨0, _⟩ => rfl
  | ⟨1, _⟩ => rfl
  | ⟨2, _⟩ => rfl

/-! ### The softmax along the key axis -/

/-- The spread row maximum at (b, n, k'): the fold of max from −∞ over row (b, n), taken once more against −∞. -/
theorem maxT_apply (s : FVec Ideal S8x2048x2048 .f32) (b : Fin 8) (n k' : Fin 2048) :
    maxT (F := Ideal) s (ix3 b n k')
      = max Cert.Attn.negInf (Cert.Attn.rowMax fun k => s (ix3 b n k)) := by
  unfold maxT
  rw [spread_apply, keepdims_apply, maximumf_apply, broadcastInDim_scalar_apply, constant_apply,
    Host.reduce_eq_fold_single FloatOps.maximumf s _ reducesTo_S8x2048x2048_S8x2048_d2 red h_S_]
  refine congrArg (max Cert.Attn.negInf) ?_
  unfold Cert.Attn.rowMax
  have hf : (s ∘ red.lift (ix2 b n)) = fun k : Fin 2048 => s (ix3 b n k) :=
    funext fun k => congrArg s (lift_row b n k)
  exact congrArg (fun f => Finset.fold max Cert.Attn.negInf f (Finset.univ : Finset (Fin 2048))) hf

/-- The exponential at (b, n, k'): of the score less its row's maximum. -/
theorem expT_apply (s : FVec Ideal S8x2048x2048 .f32) (b : Fin 8) (n k' : Fin 2048) :
    expT (F := Ideal) s (ix3 b n k')
      = Ideal.exp (s (ix3 b n k') - max Cert.Attn.negInf (Cert.Attn.rowMax fun k => s (ix3 b n k))) := by
  unfold expT Host.exp
  rw [Ideal.hostUnary_exp_def, subf_apply, maxT_apply]

/-- The softmax weight at (b, n, k'): arrangement R's weight of row (b, n) at k'. -/
theorem softT_apply (s : FVec Ideal S8x2048x2048 .f32) (b : Fin 8) (n k' : Fin 2048) :
    softT (F := Ideal) s (ix3 b n k') = Cert.Attn.attnR (fun k => s (ix3 b n k)) k' := by
  unfold softT Cert.Attn.attnR
  rw [hostDivf_apply, spread_apply, keepdims_apply, hostReduceAdd_apply,
    Ideal.hostReduceAdd_single reducesTo_S8x2048x2048_S8x2048_d2 red, constant_apply, expT_apply]
  refine congrArg (Ideal.div _) (congrArg (Cert.Attn.zero + ·) (Finset.sum_congr rfl fun k _ => ?_))
  rw [lift_row]
  exact expT_apply s b n _

/-! ### The weighted values, the output projection and its bias -/

private theorem lhs_mix_0 (i : S8x2048x512.Idx) (q : dot_S8x2048x2048_S8x2048x512_S8x2048x512_2_1_1_2_0_0.contr.Idx) :
    (dot_S8x2048x2048_S8x2048x512_S8x2048x512_2_1_1_2_0_0.lhsIdx i q 0).val = (i 0).val := by
  unfold DotDims.lhsIdx
  rw [dif_pos (show (0 : Fin S8x2048x2048.rank) ∈ dot_S8x2048x2048_S8x2048x512_S8x2048x512_2_1_1_2_0_0.lhsBatch by decide)]
  rfl
private theorem lhs_mix_1 (i : S8x2048x512.Idx) (q : dot_S8x2048x2048_S8x2048x512_S8x2048x512_2_1_1_2_0_0.contr.Idx) :
    (dot_S8x2048x2048_S8x2048x512_S8x2048x512_2_1_1_2_0_0.lhsIdx i q 1).val = (i 1).val := by
  unfold DotDims.lhsIdx
  rw [dif_neg (show ¬(1 : Fin S8x2048x2048.rank) ∈ dot_S8x2048x2048_S8x2048x512_S8x2048x512_2_1_1_2_0_0.lhsBatch by decide), dif_pos (show (1 : Fin S8x2048x2048.rank) ∈ dot_S8x2048x2048_S8x2048x512_S8x2048x512_2_1_1_2_0_0.lhsNonContracting by decide)]
  rfl
private theorem lhs_mix_2 (i : S8x2048x512.Idx) (q : dot_S8x2048x2048_S8x2048x512_S8x2048x512_2_1_1_2_0_0.contr.Idx) :
    (dot_S8x2048x2048_S8x2048x512_S8x2048x512_2_1_1_2_0_0.lhsIdx i q 2).val = (q ⟨0, by decide⟩).val :=
  dot_S8x2048x2048_S8x2048x512_S8x2048x512_2_1_1_2_0_0.lhsIdx_val_of_single rfl i q
private theorem rhs_mix_0 (i : S8x2048x512.Idx) (q : dot_S8x2048x2048_S8x2048x512_S8x2048x512_2_1_1_2_0_0.contr.Idx) :
    (dot_S8x2048x2048_S8x2048x512_S8x2048x512_2_1_1_2_0_0.rhsIdx i q 0).val = (i 0).val := by
  unfold DotDims.rhsIdx
  rw [dif_pos (show (0 : Fin S8x2048x512.rank) ∈ dot_S8x2048x2048_S8x2048x512_S8x2048x512_2_1_1_2_0_0.rhsBatch by decide)]
  rfl
private theorem rhs_mix_1 (i : S8x2048x512.Idx) (q : dot_S8x2048x2048_S8x2048x512_S8x2048x512_2_1_1_2_0_0.contr.Idx) :
    (dot_S8x2048x2048_S8x2048x512_S8x2048x512_2_1_1_2_0_0.rhsIdx i q 1).val = (q ⟨0, by decide⟩).val :=
  dot_S8x2048x2048_S8x2048x512_S8x2048x512_2_1_1_2_0_0.rhsIdx_val_of_single rfl i q
private theorem rhs_mix_2 (i : S8x2048x512.Idx) (q : dot_S8x2048x2048_S8x2048x512_S8x2048x512_2_1_1_2_0_0.contr.Idx) :
    (dot_S8x2048x2048_S8x2048x512_S8x2048x512_2_1_1_2_0_0.rhsIdx i q 2).val = (i 2).val := by
  unfold DotDims.rhsIdx
  rw [dif_neg (show ¬(2 : Fin S8x2048x512.rank) ∈ dot_S8x2048x2048_S8x2048x512_S8x2048x512_2_1_1_2_0_0.rhsBatch by decide), dif_pos (show (2 : Fin S8x2048x512.rank) ∈ dot_S8x2048x2048_S8x2048x512_S8x2048x512_2_1_1_2_0_0.rhsNonContracting by decide)]
  rfl

/-- The weighted values at (b, n, mm): the weights of row (b, n) against column mm of batch b's values. -/
theorem mixT_apply (attn : FVec Ideal S8x2048x2048 .f32) (v : FVec Ideal S8x2048x512 .f32) (b : Fin 8)
    (n : Fin 2048) (mm : Fin 512) :
    Host.dotGeneral (F := Ideal) dot_S8x2048x2048_S8x2048x512_S8x2048x512_2_1_1_2_0_0 none attn v (ix3 b n mm)
      = Cert.Attn.mix (fun k => attn (ix3 b n k)) (fun k mm => v (ix3 b k mm)) mm := by
  unfold Cert.Attn.mix
  simp only [Host.dotGeneral]
  rw [Ideal.dotGeneral_apply, ← Equiv.sum_comp (contrEquiv1 dot_S8x2048x2048_S8x2048x512_S8x2048x512_2_1_1_2_0_0 2048 rfl rfl).symm]
  refine Finset.sum_congr rfl fun k _ => ?_
  have hk := contrEquiv1_symm_val dot_S8x2048x2048_S8x2048x512_S8x2048x512_2_1_1_2_0_0 2048 rfl rfl k
  have el : dot_S8x2048x2048_S8x2048x512_S8x2048x512_2_1_1_2_0_0.lhsIdx (ix3 b n mm) ((contrEquiv1 dot_S8x2048x2048_S8x2048x512_S8x2048x512_2_1_1_2_0_0 2048 rfl rfl).symm k) = ix3 b n k := funext fun a => Fin.ext (by
    match a with
    | ⟨0, _⟩ => exact lhs_mix_0 _ _
    | ⟨1, _⟩ => exact lhs_mix_1 _ _
    | ⟨2, _⟩ => exact (lhs_mix_2 _ _).trans hk)
  have er : dot_S8x2048x2048_S8x2048x512_S8x2048x512_2_1_1_2_0_0.rhsIdx (ix3 b n mm) ((contrEquiv1 dot_S8x2048x2048_S8x2048x512_S8x2048x512_2_1_1_2_0_0 2048 rfl rfl).symm k) = ix3 b k mm := funext fun a => Fin.ext (by
    match a with
    | ⟨0, _⟩ => exact rhs_mix_0 _ _
    | ⟨1, _⟩ => exact (rhs_mix_1 _ _).trans hk
    | ⟨2, _⟩ => exact rhs_mix_2 _ _)
  rw [el, er]

private theorem lhs_lin_0 (i : S8x2048x256.Idx) (q : dot_S8x2048x512_S512x256_S8x2048x256_2_0_01_1_n_n.contr.Idx) :
    (dot_S8x2048x512_S512x256_S8x2048x256_2_0_01_1_n_n.lhsIdx i q 0).val = (i 0).val := by
  unfold DotDims.lhsIdx
  rw [dif_neg (show ¬(0 : Fin S8x2048x512.rank) ∈ dot_S8x2048x512_S512x256_S8x2048x256_2_0_01_1_n_n.lhsBatch by decide), dif_pos (show (0 : Fin S8x2048x512.rank) ∈ dot_S8x2048x512_S512x256_S8x2048x256_2_0_01_1_n_n.lhsNonContracting by decide)]
  rfl
private theorem lhs_lin_1 (i : S8x2048x256.Idx) (q : dot_S8x2048x512_S512x256_S8x2048x256_2_0_01_1_n_n.contr.Idx) :
    (dot_S8x2048x512_S512x256_S8x2048x256_2_0_01_1_n_n.lhsIdx i q 1).val = (i 1).val := by
  unfold DotDims.lhsIdx
  rw [dif_neg (show ¬(1 : Fin S8x2048x512.rank) ∈ dot_S8x2048x512_S512x256_S8x2048x256_2_0_01_1_n_n.lhsBatch by decide), dif_pos (show (1 : Fin S8x2048x512.rank) ∈ dot_S8x2048x512_S512x256_S8x2048x256_2_0_01_1_n_n.lhsNonContracting by decide)]
  rfl
private theorem lhs_lin_2 (i : S8x2048x256.Idx) (q : dot_S8x2048x512_S512x256_S8x2048x256_2_0_01_1_n_n.contr.Idx) :
    (dot_S8x2048x512_S512x256_S8x2048x256_2_0_01_1_n_n.lhsIdx i q 2).val = (q ⟨0, by decide⟩).val :=
  dot_S8x2048x512_S512x256_S8x2048x256_2_0_01_1_n_n.lhsIdx_val_of_single rfl i q
private theorem rhs_lin_0 (i : S8x2048x256.Idx) (q : dot_S8x2048x512_S512x256_S8x2048x256_2_0_01_1_n_n.contr.Idx) :
    (dot_S8x2048x512_S512x256_S8x2048x256_2_0_01_1_n_n.rhsIdx i q 0).val = (q ⟨0, by decide⟩).val :=
  dot_S8x2048x512_S512x256_S8x2048x256_2_0_01_1_n_n.rhsIdx_val_of_single rfl i q
private theorem rhs_lin_1 (i : S8x2048x256.Idx) (q : dot_S8x2048x512_S512x256_S8x2048x256_2_0_01_1_n_n.contr.Idx) :
    (dot_S8x2048x512_S512x256_S8x2048x256_2_0_01_1_n_n.rhsIdx i q 1).val = (i 2).val := by
  unfold DotDims.rhsIdx
  rw [dif_neg (show ¬(1 : Fin S512x256.rank) ∈ dot_S8x2048x512_S512x256_S8x2048x256_2_0_01_1_n_n.rhsBatch by decide), dif_pos (show (1 : Fin S512x256.rank) ∈ dot_S8x2048x512_S512x256_S8x2048x256_2_0_01_1_n_n.rhsNonContracting by decide)]
  rfl

/-- The bias spread over every batch and row reads its entry at the feature coordinate. -/
private theorem bias_apply {α : Type} (a5 : S256.Idx → α) (b : Fin 8) (n : Fin 2048) (d : Fin 256) :
    broadcastInDim S8x2048x256 ![0, 1, 2] bcast_S1x1x256_S8x2048x256_0_1_2
        (broadcastInDim S1x1x256 ![2] bcast_S256_S1x1x256_2 a5) (ix3 b n d) = a5 (ix1 d) := by
  unfold broadcastInDim
  refine congrArg a5 (funext fun a => Fin.ext ?_)
  match a with
  | ⟨0, _⟩ => rfl

/-- An array [8, 2048, 512] through the output projection plus the bias, at (b, n, d). -/
private theorem linOuter_apply (r : FVec Ideal S8x2048x512 .f32) (a4 : FVec Ideal S512x256 .f32)
    (a5 : FVec Ideal S256 .f32) (b : Fin 8) (n : Fin 2048) (d : Fin 256) :
    addf (Host.dotGeneral (F := Ideal) dot_S8x2048x512_S512x256_S8x2048x256_2_0_01_1_n_n none r a4)
        (broadcastInDim S8x2048x256 ![0, 1, 2] bcast_S1x1x256_S8x2048x256_0_1_2
          (broadcastInDim S1x1x256 ![2] bcast_S256_S1x1x256_2 a5)) (ix3 b n d)
      = Cert.Attn.lin (fun mm => r (ix3 b n mm)) (fun mm d => a4 (ix2 mm d)) (fun d => a5 (ix1 d)) d := by
  unfold Cert.Attn.lin
  rw [addf_apply, bias_apply]
  simp only [Host.dotGeneral]
  refine congrArg (· + a5 (ix1 d)) ?_
  rw [Ideal.dotGeneral_apply, ← Equiv.sum_comp (contrEquiv1 dot_S8x2048x512_S512x256_S8x2048x256_2_0_01_1_n_n 512 rfl rfl).symm]
  refine Finset.sum_congr rfl fun k _ => ?_
  have hk := contrEquiv1_symm_val dot_S8x2048x512_S512x256_S8x2048x256_2_0_01_1_n_n 512 rfl rfl k
  have el : dot_S8x2048x512_S512x256_S8x2048x256_2_0_01_1_n_n.lhsIdx (ix3 b n d) ((contrEquiv1 dot_S8x2048x512_S512x256_S8x2048x256_2_0_01_1_n_n 512 rfl rfl).symm k) = ix3 b n k := funext fun a => Fin.ext (by
    match a with
    | ⟨0, _⟩ => exact lhs_lin_0 _ _
    | ⟨1, _⟩ => exact lhs_lin_1 _ _
    | ⟨2, _⟩ => exact (lhs_lin_2 _ _).trans hk)
  have er : dot_S8x2048x512_S512x256_S8x2048x256_2_0_01_1_n_n.rhsIdx (ix3 b n d) ((contrEquiv1 dot_S8x2048x512_S512x256_S8x2048x256_2_0_01_1_n_n 512 rfl rfl).symm k) = ix2 k d := funext fun a => Fin.ext (by
    match a with
    | ⟨0, _⟩ => exact (rhs_lin_0 _ _).trans hk
    | ⟨1, _⟩ => exact rhs_lin_1 _ _)
  rw [el, er]

/-- The linear stage at (b, n, d): the weights of row (b, n) applied to batch b's values, projected, plus the bias. -/
theorem linT_apply (attn : FVec Ideal S8x2048x2048 .f32) (v : FVec Ideal S8x2048x512 .f32)
    (a4 : FVec Ideal S512x256 .f32) (a5 : FVec Ideal S256 .f32) (b : Fin 8) (n : Fin 2048) (d : Fin 256) :
    linT (F := Ideal) attn v a4 a5 (ix3 b n d)
      = Cert.Attn.lin (Cert.Attn.mix (fun k => attn (ix3 b n k)) (fun k mm => v (ix3 b k mm)))
          (fun mm d => a4 (ix2 mm d)) (fun d => a5 (ix1 d)) d := by
  unfold linT
  rw [linOuter_apply]
  exact congrArg (fun r => Cert.Attn.lin r (fun mm d => a4 (ix2 mm d)) (fun d => a5 (ix1 d)) d)
    (funext fun mm => mixT_apply attn v b n mm)

/-! ### The leaky ReLU -/

/-- The leaky ReLU at an index is the scalar one of the entry. -/
theorem lreluT_apply (y : FVec Ideal S8x2048x256 .f32) (b : Fin 8) (n : Fin 2048) (d : Fin 256) :
    lreluT (F := Ideal) y (ix3 b n d) = Cert.Attn.lrelu (y (ix3 b n d)) := by
  unfold lreluT Cert.Attn.lrelu
  rw [select_apply, cmpf_apply, mulf_apply, broadcastInDim_scalar_apply, broadcastInDim_scalar_apply, constant_apply,
    Ideal.cmpf_def]
  rfl

/-! ### The whole reference -/

/-- The reference's result at (b, n, d) is arrangement R of the layer over the arguments' entries. -/
theorem refOut_apply (a0 : FVec Ideal S8x2048x256 .f32) (a1 a2 a3 : FVec Ideal S256x512 .f32)
    (a4 : FVec Ideal S512x256 .f32) (a5 : FVec Ideal S256 .f32) (b : Fin 8) (n : Fin 2048) (d : Fin 256) :
    refOut (F := Ideal) a0 a1 a2 a3 a4 a5 (ix3 b n d)
      = Cert.Attn.GR (fun b n d => a0 (ix3 b n d)) (fun d mm => a1 (ix2 d mm)) (fun d mm => a2 (ix2 d mm))
          (fun d mm => a3 (ix2 d mm)) (fun mm d => a4 (ix2 mm d)) (fun d => a5 (ix1 d)) b n d := by
  have hs : (fun k => scoresT (F := Ideal) (projT a0 a1) (projT a0 a2) (ix3 b n k))
      = Cert.Attn.scoresR (Cert.Attn.rowProj (fun d => a0 (ix3 b n d)) (fun d mm => a1 (ix2 d mm)))
          (fun k => Cert.Attn.rowProj (fun d => a0 (ix3 b k d)) (fun d mm => a2 (ix2 d mm))) := by
    funext k
    rw [scoresT_apply]
    unfold Cert.Attn.scoresR
    simp only [projT_apply]
  have ha : (fun k => softT (F := Ideal) (scoresT (projT a0 a1) (projT a0 a2)) (ix3 b n k))
      = Cert.Attn.attnR (Cert.Attn.scoresR (Cert.Attn.rowProj (fun d => a0 (ix3 b n d)) (fun d mm => a1 (ix2 d mm)))
          (fun k => Cert.Attn.rowProj (fun d => a0 (ix3 b k d)) (fun d mm => a2 (ix2 d mm)))) := by
    funext k
    rw [softT_apply, hs]
  have hv : (fun k mm => projT (F := Ideal) a0 a3 (ix3 b k mm))
      = fun k => Cert.Attn.rowProj (fun d => a0 (ix3 b k d)) (fun d mm => a3 (ix2 d mm)) := by
    funext k mm
    exact projT_apply a0 a3 b k mm
  unfold refOut
  rw [addf_apply, lreluT_apply, linT_apply, ha, hv]
  rfl

end Cert.ReferenceIdeal.RefValue

end
-- ==== Proof.lean ====
/-
  The certificate of a fused attention kernel against its jnp reference, over the extended reals.

  Both programs compute, for every batch `b` and row `n` of the features `x` (8 × 2048 × 256), single-head attention
  over the 2048 rows of the same batch followed by a linear layer, a leaky ReLU and a residual:

      q = x[b,n] · Wq,   K = x[b] · Wk,   V = x[b] · Wv              (256 → 512)
      a = softmax_k (⟨q, K_k⟩ · τ)                                     (τ the f32 nearest 1/√512)
      out[b,n] = leaky_relu ((∑_k a_k · V_k) · W2 + b2) + x[b,n]      (slope the f32 nearest 1/5)

  The kernel walks a grid of 8 batches × 4 query tiles of 512 rows; at the first tile of a batch it stores the batch's
  K and V in two scratch buffers, and every tile then attends against those. Its arithmetic differs from the reference's
  in arrangement only: it multiplies the query by τ before the inner products instead of scaling the scores, and it
  multiplies the exponentials by the reciprocal of their sum instead of dividing (`Cert.Attn.GK` against `Cert.Attn.GR`).
  A change of float format is the identity on extended reals, and a blocked or re-ordered finite sum is the same sum.

  The pieces: the kernel's result array is `GK` of the argument arrays at every index (the scratch invariant, the tile
  payload read at an index, and the 32 blocks tiling the array); the reference's result array is `GR` of them (its host
  operations composed, each read at an index); and on FINITE features and weights `GK = GR`: all scores are then real
  numbers, so τ distributes over the finite sum, the row maximum is real, every exponential is a positive real and
  their sum is a positive real — not zero, which is the only place a quotient and a product with the reciprocal can
  differ on the extended reals. This is the one use of the precondition. The three frames are the generated frame runs
  (the reference's: its run with the result dropped); the ideal pass rewrote nothing, so `preserves` is trivial.
-/
import proofs.«411892_j26121991094971_3_alg».proof.Defs
import proofs.«411892_j26121991094971_3_alg».proof.Proof.Gen.Kernel
import proofs.«411892_j26121991094971_3_alg».proof.Proof.Gen.Kernel.Frame
import proofs.«411892_j26121991094971_3_alg».proof.Proof.Gen.KernelIdeal
import proofs.«411892_j26121991094971_3_alg».proof.Proof.Gen.KernelIdeal.Frame
import proofs.«411892_j26121991094971_3_alg».proof.Proof.Gen.KernelIdeal.Value
import proofs.«411892_j26121991094971_3_alg».proof.Proof.Gen.ReferenceIdeal
import proofs.«411892_j26121991094971_3_alg».proof.Proof.Gen.Pre_finite_inputs
import proofs.«411892_j26121991094971_3_alg».proof.Proof.Spec
import proofs.«411892_j26121991094971_3_alg».proof.Proof.KBlocks
import proofs.«411892_j26121991094971_3_alg».proof.Proof.Finite
import proofs.«411892_j26121991094971_3_alg».proof.Proof.RefRun
import proofs.«411892_j26121991094971_3_alg».proof.Proof.RefValue

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2)
    (Cert.ReferenceIdeal.RefValue.run (F := Ideal) m ρ)

/-- The ideal pass rewrote no operation. -/
theorem preserves : Cert.preserves_Kernel_KernelIdeal := trivial

/-- Both programs end with the layer's value in their result arrays: the kernel's in arrangement K, the reference's in
    arrangement R of arguments that agree, and on finite arguments the two arrangements are one function. -/
theorem algebraic : Cert.algebraic_KernelIdeal_ReferenceIdeal := by
  intro m ρ m' ρ' hpre hagree
  refine ⟨fun c => Cert.KernelIdeal.KV.G m c, Cert.KernelIdeal.KV.run m ρ, ?_⟩
  refine (θ_run Cert.ReferenceIdeal.defs _ _).mono (fun _ h c => ⟨(h c).1.trans ?_, (h c).2⟩)
    (Cert.ReferenceIdeal.RefValue.run (F := Ideal) m' ρ')
  obtain ⟨hx, hwq, hwk⟩ := Cert.KernelIdeal.KV.real_of_pre m hpre c
  obtain ⟨a0, a1, a2, a3, a4, a5⟩ := hagree c
  rw [a0, a1, a2, a3, a4, a5]
  funext i
  obtain ⟨b, n, d, rfl⟩ : ∃ (b : Fin 8) (n : Fin 2048) (d : Fin 256), i = ix3 b n d := ⟨i 0, i 1, i 2, eq_ix3 i⟩
  rw [Cert.ReferenceIdeal.RefValue.refOut_apply]
  show _ = Cert.Attn.GK (Cert.KernelIdeal.KV.X m c) (Cert.KernelIdeal.KV.WQ m c) (Cert.KernelIdeal.KV.WK m c)
    (Cert.KernelIdeal.KV.WV m c) (Cert.KernelIdeal.KV.W2 m c) (Cert.KernelIdeal.KV.B2 m c) b n d
  exact (congrFun (congrFun (congrFun (Cert.Attn.GK_eq_GR _ _ _ _ _ _ (fun b n d => hx _) (fun d mm => hwq _)
    (fun d mm => hwk _)) _) _) _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
